-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x3 : Shape := ⟨3, ![8, 2048, 3]⟩
abbrev S8x3x2048 : Shape := ⟨3, ![8, 3, 2048]⟩
abbrev S8x4096x3 : Shape := ⟨3, ![8, 4096, 3]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel
  bcast_S_S8x3x2048 : S_.BroadcastsInDim S8x3x2048 (![] : Fin 0 → Fin S8x3x2048.rank)
  reducesTo_S8x3x2048_S_d0_1_2 : S8x3x2048.ReducesTo [0, 1, 2] S_
  bcast_S_S8x4096x3 : S_.BroadcastsInDim S8x4096x3 (![] : Fin 0 → Fin S8x4096x3.rank)
  reducesTo_S8x4096x3_S_d0_1_2 : S8x4096x3.ReducesTo [0, 1, 2] S_

variable [Facts]

def fn_part1 {F : FTy → Type} [FloatOps F] (main_v13 : IVec S_ 1) (main_v16 : IVec S8x4096x3 1) : IVec S_ 1 :=
  let main_c_5 : IVec S_ 1 := constantI S_ 1 1#1
  let main_v17 : IVec S_ 1 := (fun x v => Host.reduce IntOp.andi x v reducesTo_S8x4096x3_S_d0_1_2 h_S_) main_v16 main_c_5
  let main_v18 : IVec S_ 1 := andi main_v13 main_v17
  main_v18

def fn {F : FTy → Type} [FloatOps F] (main_arg0 : FVec F S8x2048x3 .f32) (main_arg1 : FVec F S8x2048x3 .f32) (main_arg2 : FVec F S8x3x2048 .f32) (main_arg3 : FVec F S8x4096x3 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  let main_v4 : FVec F S8x2048x3 .f32 := Host.absf main_arg1
  let main_cst_0 : FVec F S_ .f32 := constant S_ .f32 0x7F800000#32
  let main_v5 : FVec F S8x2048x3 .f32 := broadcastInDim S8x2048x3 ![] bcast_S_S8x2048x3 main_cst_0
  let main_v6 : IVec S8x2048x3 1 := cmpf .olt main_v4 main_v5
  let main_c_1 : IVec S_ 1 := constantI S_ 1 1#1
  let main_v7 : IVec S_ 1 := (fun x v => Host.reduce IntOp.andi x v reducesTo_S8x2048x3_S_d0_1_2 h_S_) main_v6 main_c_1
  let main_v8 : IVec S_ 1 := andi main_v3 main_v7
  let main_v9 : FVec F S8x3x2048 .f32 := Host.absf main_arg2
  let main_cst_2 : FVec F S_ .f32 := constant S_ .f32 0x7F800000#32
  let main_v10 : FVec F S8x3x2048 .f32 := broadcastInDim S8x3x2048 ![] bcast_S_S8x3x2048 main_cst_2
  let main_v11 : IVec S8x3x2048 1 := cmpf .olt main_v9 main_v10
  let main_c_3 : IVec S_ 1 := constantI S_ 1 1#1
  let main_v12 : IVec S_ 1 := (fun x v => Host.reduce IntOp.andi x v reducesTo_S8x3x2048_S_d0_1_2 h_S_) main_v11 main_c_3
  let main_v13 : IVec S_ 1 := andi main_v8 main_v12
  let main_v14 : FVec F S8x4096x3 .f32 := Host.absf main_arg3
  let main_cst_4 : FVec F S_ .f32 := constant S_ .f32 0x7F800000#32
  let main_v15 : FVec F S8x4096x3 .f32 := broadcastInDim S8x4096x3 ![] bcast_S_S8x4096x3 main_cst_4
  let main_v16 : IVec S8x4096x3 1 := cmpf .olt main_v14 main_v15
  fn_part1 (F := F) main_v13 main_v16
-- ==== Kernel.lean ====
abbrev S8x2048x3 : Shape := ⟨3, ![8, 2048, 3]⟩
abbrev S8x3x2048 : Shape := ⟨3, ![8, 3, 2048]⟩
abbrev S8x4096x3 : Shape := ⟨3, ![8, 4096, 3]⟩
abbrev S_ : Shape := ⟨0, ![]⟩
abbrev S8x2048 : Shape := ⟨2, ![8, 2048]⟩
abbrev S8x1x2048 : Shape := ⟨3, ![8, 1, 2048]⟩
abbrev S1x2048x3 : Shape := ⟨3, ![1, 2048, 3]⟩
abbrev S1x1x2048 : Shape := ⟨3, ![1, 1, 2048]⟩
abbrev S2048x3 : Shape := ⟨2, ![2048, 3]⟩
abbrev S3x2048 : Shape := ⟨2, ![3, 2048]⟩
abbrev S2048x1 : Shape := ⟨2, ![2048, 1]⟩
abbrev S1x256 : Shape := ⟨2, ![1, 256]⟩
abbrev S2048x256 : Shape := ⟨2, ![2048, 256]⟩
abbrev S2048 : Shape := ⟨1, ![2048]⟩
abbrev S256 : Shape := ⟨1, ![256]⟩
abbrev S1x1x256 : Shape := ⟨3, ![1, 1, 256]⟩
abbrev S8x1x4096 : Shape := ⟨3, ![8, 1, 4096]⟩
abbrev S1x4096x3 : Shape := ⟨3, ![1, 4096, 3]⟩
abbrev S1x1x4096 : Shape := ⟨3, ![1, 1, 4096]⟩
abbrev S4096x3 : Shape := ⟨2, ![4096, 3]⟩
abbrev S4096x1 : Shape := ⟨2, ![4096, 1]⟩
abbrev S4096x256 : Shape := ⟨2, ![4096, 256]⟩
abbrev S4096 : Shape := ⟨1, ![4096]⟩
abbrev S8x4096 : Shape := ⟨2, ![8, 4096]⟩

abbrev nBuf : Space → Nat
  | .hbm => 45
  | .vmem => 16
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S8x3x2048, .f32⟩
  | .hbm, ⟨3, _⟩ => ⟨S8x4096x3, .f32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S_, .f32⟩
  | .hbm, ⟨15, _⟩ => ⟨S8x2048, .f32⟩
  | .hbm, ⟨16, _⟩ => ⟨S8x2048, .f32⟩
  | .hbm, ⟨17, _⟩ => ⟨S8x1x2048, .f32⟩
  | .hbm, ⟨18, _⟩ => ⟨S8x1x2048, .f32⟩
  | .hbm, ⟨19, _⟩ => ⟨S8x2048, .f32⟩
  | .hbm, ⟨20, _⟩ => ⟨S8x2048, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x2048, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x1x4096, .f32⟩
  | .hbm, ⟨32, _⟩ => ⟨S8x1x2048, .f32⟩
  | .hbm, ⟨33, _⟩ => ⟨S8x4096, .f32⟩
  | .hbm, ⟨34, _⟩ => ⟨S8x2048, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S1x2048x3, .f32⟩
  | .local _ .vmem, ⟨1, _⟩ => ⟨S1x2048x3, .f32⟩
  | .local _ .vmem, ⟨2, _⟩ => ⟨S1x2048x3, .f32⟩
  | .local _ .vmem, ⟨3, _⟩ => ⟨S1x2048x3, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x4096x3, .f32⟩
  | .local _ .vmem, ⟨9, _⟩ => ⟨S1x4096x3, .f32⟩
  | .local _ .vmem, ⟨10, _⟩ => ⟨S1x2048x3, .f32⟩
  | .local _ .vmem, ⟨11, _⟩ => ⟨S1x2048x3, .f32⟩
  | .local _ .vmem, ⟨12, _⟩ => ⟨S1x1x4096, .f32⟩
  | .local _ .vmem, ⟨13, _⟩ => ⟨S1x1x4096, .f32⟩
  | .local _ .vmem, ⟨14, _⟩ => ⟨S1x1x2048, .f32⟩
  | .local _ .vmem, ⟨15, _⟩ => ⟨S1x1x2048, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_cst_6 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_cst_8 : Ref sig .tc := ⟨.hbm, 37, rfl⟩
abbrev main_v22 : Ref sig .tc := ⟨.hbm, 38, rfl⟩
abbrev main_cst_9 : Ref sig .tc := ⟨.hbm, 39, rfl⟩
abbrev main_v23 : Ref sig .tc := ⟨.hbm, 40, rfl⟩
abbrev main_cst_10 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  reducesTo_S8x3x2048_S8x2048_d1 : S8x3x2048.ReducesTo [1] S8x2048
  h_S_ : 0 < S_.numel
  bcast_S_S8x2048 : S_.BroadcastsInDim S8x2048 (![] : Fin 0 → Fin S8x2048.rank)
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  transposes_S2048x3_p1_0_S3x2048 : S2048x3.Transposes [1, 0] S3x2048
  slices_S2048x3_o0_0_S2048x1 : S2048x3.Slices ![0, 0] S2048x1
  slices_S2048x3_o0_1_S2048x1 : S2048x3.Slices ![0, 1] S2048x1
  slices_S2048x3_o0_2_S2048x1 : S2048x3.Slices ![0, 2] S2048x1
  slices_S3x2048_o0_0_S1x256 : S3x2048.Slices ![0, 0] S1x256
  slices_S3x2048_o1_0_S1x256 : S3x2048.Slices ![1, 0] S1x256
  slices_S3x2048_o2_0_S1x256 : S3x2048.Slices ![2, 0] S1x256
  broadcasts_S2048x1_S2048x256 : S2048x1.Broadcasts S2048x256
  broadcasts_S1x256_S2048x256 : S1x256.Broadcasts S2048x256
  reduces_S2048x256_S2048 : S2048x256.Reduces [1] S2048
  shapeCasts_S2048_S2048x1 : S2048.ShapeCasts S2048x1
  reduces_S2048x256_S256 : S2048x256.Reduces [0] S256
  shapeCasts_S256_S1x256 : S256.ShapeCasts S1x256
  shapeCasts_S1x256_S256 : S1x256.ShapeCasts S256
  inb_S1x1x2048_S1x1x256_0_0_0 : ∀ a, (![0, 0, 0] : Fin 3 → Nat) a + S1x1x256.size a ≤ S1x1x2048.size a
  h_S1x1x256 : 0 < S1x1x256.numel
  shapeCasts_S1x1x256_S256 : S1x1x256.ShapeCasts S256
  shapeCasts_S256_S1x1x256 : S256.ShapeCasts S1x1x256
  slices_S3x2048_o0_256_S1x256 : S3x2048.Slices ![0, 256] S1x256
  slices_S3x2048_o1_256_S1x256 : S3x2048.Slices ![1, 256] S1x256
  slices_S3x2048_o2_256_S1x256 : S3x2048.Slices ![2, 256] S1x256
  inb_S1x1x2048_S1x1x256_0_0_256 : ∀ a, (![0, 0, 256] : Fin 3 → Nat) a + S1x1x256.size a ≤ S1x1x2048.size a
  slices_S3x2048_o0_512_S1x256 : S3x2048.Slices ![0, 512] S1x256
  slices_S3x2048_o1_512_S1x256 : S3x2048.Slices ![1, 512] S1x256
  slices_S3x2048_o2_512_S1x256 : S3x2048.Slices ![2, 512] S1x256
  inb_S1x1x2048_S1x1x256_0_0_512 : ∀ a, (![0, 0, 512] : Fin 3 → Nat) a + S1x1x256.size a ≤ S1x1x2048.size a
  slices_S3x2048_o0_768_S1x256 : S3x2048.Slices ![0, 768] S1x256
  slices_S3x2048_o1_768_S1x256 : S3x2048.Slices ![1, 768] S1x256
  slices_S3x2048_o2_768_S1x256 : S3x2048.Slices ![2, 768] S1x256
  inb_S1x1x2048_S1x1x256_0_0_768 : ∀ a, (![0, 0, 768] : Fin 3 → Nat) a + S1x1x256.size a ≤ S1x1x2048.size a
  slices_S3x2048_o0_1024_S1x256 : S3x2048.Slices ![0, 1024] S1x256
  slices_S3x2048_o1_1024_S1x256 : S3x2048.Slices ![1, 1024] S1x256
  slices_S3x2048_o2_1024_S1x256 : S3x2048.Slices ![2, 1024] S1x256
  inb_S1x1x2048_S1x1x256_0_0_1024 : ∀ a, (![0, 0, 1024] : Fin 3 → Nat) a + S1x1x256.size a ≤ S1x1x2048.size a
  slices_S3x2048_o0_1280_S1x256 : S3x2048.Slices ![0, 1280] S1x256
  slices_S3x2048_o1_1280_S1x256 : S3x2048.Slices ![1, 1280] S1x256
  slices_S3x2048_o2_1280_S1x256 : S3x2048.Slices ![2, 1280] S1x256
  inb_S1x1x2048_S1x1x256_0_0_1280 : ∀ a, (![0, 0, 1280] : Fin 3 → Nat) a + S1x1x256.size a ≤ S1x1x2048.size a
  slices_S3x2048_o0_1536_S1x256 : S3x2048.Slices ![0, 1536] S1x256
  slices_S3x2048_o1_1536_S1x256 : S3x2048.Slices ![1, 1536] S1x256
  slices_S3x2048_o2_1536_S1x256 : S3x2048.Slices ![2, 1536] S1x256
  inb_S1x1x2048_S1x1x256_0_0_1536 : ∀ a, (![0, 0, 1536] : Fin 3 → Nat) a + S1x1x256.size a ≤ S1x1x2048.size a
  slices_S3x2048_o0_1792_S1x256 : S3x2048.Slices ![0, 1792] S1x256
  slices_S3x2048_o1_1792_S1x256 : S3x2048.Slices ![1, 1792] S1x256
  slices_S3x2048_o2_1792_S1x256 : S3x2048.Slices ![2, 1792] S1x256
  inb_S1x1x2048_S1x1x256_0_0_1792 : ∀ a, (![0, 0, 1792] : Fin 3 → Nat) a + S1x1x256.size a ≤ S1x1x2048.size a
  shapeCasts_S2048x1_S2048 : S2048x1.ShapeCasts S2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S2048_S1x1x2048 : S2048.ShapeCasts S1x1x2048
  shapeCasts_S8x1x2048_S8x2048 : S8x1x2048.ShapeCasts S8x2048
  reducesTo_S8x2048_S_d0_1 : S8x2048.ReducesTo [0, 1] S_
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  slices_S4096x3_o0_0_S4096x1 : S4096x3.Slices ![0, 0] S4096x1
  slices_S4096x3_o0_1_S4096x1 : S4096x3.Slices ![0, 1] S4096x1
  slices_S4096x3_o0_2_S4096x1 : S4096x3.Slices ![0, 2] S4096x1
  broadcasts_S4096x1_S4096x256 : S4096x1.Broadcasts S4096x256
  broadcasts_S1x256_S4096x256 : S1x256.Broadcasts S4096x256
  reduces_S4096x256_S4096 : S4096x256.Reduces [1] S4096
  shapeCasts_S4096_S4096x1 : S4096.ShapeCasts S4096x1
  reduces_S4096x256_S256 : S4096x256.Reduces [0] S256
  shapeCasts_S4096x1_S4096 : S4096x1.ShapeCasts S4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S1x1x4096 : S4096.ShapeCasts S1x1x4096
  shapeCasts_S8x1x4096_S8x4096 : S8x1x4096.ShapeCasts S8x4096
  reducesTo_S8x4096_S_d0_1 : S8x4096.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S8x2048x3.size a
  hwx0_0 : ∀ i : grid0.Coords, EltTy.bits .f32 = 32 ∨ (Rect.block (s := S8x2048x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x3.size a ≤ S8x2048x3.size a
  hwx0_1 : ∀ i : grid0.Coords, EltTy.bits .f32 = 32 ∨ (Rect.block (s := S8x2048x3) S1x2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S8x1x2048.size a
  hwx0_2 : ∀ i : grid0.Coords, EltTy.bits .f32 = 32 ∨ (Rect.block (s := S8x1x2048) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S8x1x2048.size a
  hwx0_3 : ∀ i : grid0.Coords, EltTy.bits .f32 = 32 ∨ (Rect.block (s := S8x1x2048) S1x1x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x3.size a ≤ S8x4096x3.size a
  hwx1_0 : ∀ i : grid1.Coords, EltTy.bits .f32 = 32 ∨ (Rect.block (s := S8x4096x3) S1x4096x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x3.size a ≤ S8x2048x3.size a
  hwx1_1 : ∀ i : grid1.Coords, EltTy.bits .f32 = 32 ∨ (Rect.block (s := S8x2048x3) S1x2048x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x4096.size a ≤ S8x1x4096.size a
  hwx1_2 : ∀ i : grid1.Coords, EltTy.bits .f32 = 32 ∨ (Rect.block (s := S8x1x4096) S1x1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x2048.size a ≤ S8x1x2048.size a
  hwx1_3 : ∀ i : grid1.Coords, EltTy.bits .f32 = 32 ∨ (Rect.block (s := S8x1x2048) S1x1x2048.size (cc1_transform_3 i) (hinb1_3 i)).WholeWords (EltTy.packing .f32)

variable [Facts₀]

abbrev win0_0 : Pipeline.Window sig grid0 :=
  Pipeline.Window.ofSpec (Memref.whole main_arg1) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9_0) S1x1x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9_1) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg3) S1x4096x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x2048x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18_0) S1x1x4096.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18_1) S1x1x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x3 : Shape := ⟨3, ![8, 2048, 3]⟩
abbrev S8x3x2048 : Shape := ⟨3, ![8, 3, 2048]⟩
abbrev S8x4096x3 : Shape := ⟨3, ![8, 4096, 3]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x2048 : Shape := ⟨3, ![8, 2048, 2048]⟩
abbrev S8x4096 : Shape := ⟨2, ![8, 4096]⟩
abbrev S8x4096x1 : Shape := ⟨3, ![8, 4096, 1]⟩
abbrev S8x4096x2048 : Shape := ⟨3, ![8, 4096, 2048]⟩

abbrev nBuf : Space → Nat
  | .hbm => 77
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S8x3x2048, .f32⟩
  | .hbm, ⟨3, _⟩ => ⟨S8x4096x3, .f32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S_, .f32⟩
  | .hbm, ⟨15, _⟩ => ⟨S8x2048, .f32⟩
  | .hbm, ⟨16, _⟩ => ⟨S8x2048, .f32⟩
  | .hbm, ⟨17, _⟩ => ⟨S8x2048x3, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S8x2048x3, .f32⟩
  | .hbm, ⟨22, _⟩ => ⟨S_, .f32⟩
  | .hbm, ⟨23, _⟩ => ⟨S8x2048, .f32⟩
  | .hbm, ⟨24, _⟩ => ⟨S8x1x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S_, .f32⟩
  | .hbm, ⟨36, _⟩ => ⟨S8x2048, .f32⟩
  | .hbm, ⟨37, _⟩ => ⟨S8x2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8x4096x3, .f32⟩
  | .hbm, ⟨48, _⟩ => ⟨S_, .f32⟩
  | .hbm, ⟨49, _⟩ => ⟨S8x4096, .f32⟩
  | .hbm, ⟨50, _⟩ => ⟨S8x4096x1, .f32⟩
  | .hbm, ⟨51, _⟩ => ⟨S8x2048x3, .f32⟩
  | .hbm, ⟨52, _⟩ => ⟨S_, .f32⟩
  | .hbm, ⟨53, _⟩ => ⟨S8x2048, .f32⟩
  | .hbm, ⟨54, _⟩ => ⟨S8x1x2048, .f32⟩
  | .hbm, ⟨55, _⟩ => ⟨S8x4096x2048, .f32⟩
  | .hbm, ⟨56, _⟩ => ⟨S8x4096x2048, .f32⟩
  | .hbm, ⟨57, _⟩ => ⟨S8x4096x2048, .f32⟩
  | .hbm, ⟨58, _⟩ => ⟨S8x4096x2048, .f32⟩
  | .hbm, ⟨59, _⟩ => ⟨S_, .f32⟩
  | .hbm, ⟨60, _⟩ => ⟨S8x4096x2048, .f32⟩
  | .hbm, ⟨61, _⟩ => ⟨S8x4096x2048, .f32⟩
  | .hbm, ⟨62, _⟩ => ⟨S8x4096x2048, .f32⟩
  | .hbm, ⟨63, _⟩ => ⟨S_, .f32⟩
  | .hbm, ⟨64, _⟩ => ⟨S8x4096, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S8x2048, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_cst_11 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_12 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_13 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_14 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_15 : Ref sig .tc := ⟨.hbm, 63, rfl⟩
abbrev main_v43 : Ref sig .tc := ⟨.hbm, 64, rfl⟩
abbrev main_cst_16 : Ref sig .tc := ⟨.hbm, 65, rfl⟩
abbrev main_v44 : Ref sig .tc := ⟨.hbm, 66, rfl⟩
abbrev main_cst_17 : Ref sig .tc := ⟨.hbm, 67, rfl⟩
abbrev main_v45 : Ref sig .tc := ⟨.hbm, 68, rfl⟩
abbrev main_cst_18 : Ref sig .tc := ⟨.hbm, 69, rfl⟩
abbrev main_v46 : Ref sig .tc := ⟨.hbm, 70, rfl⟩
abbrev main_cst_19 : Ref sig .tc := ⟨.hbm, 71, rfl⟩
abbrev main_v47 : Ref sig .tc := ⟨.hbm, 72, rfl⟩
abbrev main_cst_20 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩

abbrev nD : Nat := 1
abbrev τ : Topo := Topo.v7x

variable {F : FTy → Type} [FloatOps F]

class Facts₀ : Prop where
  reducesTo_S8x3x2048_S8x2048_d1 : S8x3x2048.ReducesTo [1] S8x2048
  h_S_ : 0 < S_.numel
  bcast_S_S8x2048 : S_.BroadcastsInDim S8x2048 (![] : Fin 0 → Fin S8x2048.rank)
  reducesTo_S8x2048x3_S8x2048_d2 : S8x2048x3.ReducesTo [2] S8x2048
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  reducesTo_S8x2048x2048_S8x2048_d2 : S8x2048x2048.ReducesTo [2] S8x2048
  reducesTo_S8x2048x2048_S8x2048_d1 : S8x2048x2048.ReducesTo [1] S8x2048
  reducesTo_S8x2048_S_d0_1 : S8x2048.ReducesTo [0, 1] S_
  reducesTo_S8x4096x3_S8x4096_d2 : S8x4096x3.ReducesTo [2] S8x4096
  bcast_S8x4096_S8x4096x1_0_1 : S8x4096.BroadcastsInDim S8x4096x1 (![0, 1] : Fin 2 → Fin S8x4096x1.rank)
  bcast_S8x4096x1_S8x4096x2048_0_1_2 : S8x4096x1.BroadcastsInDim S8x4096x2048 (![0, 1, 2] : Fin 3 → Fin S8x4096x2048.rank)
  bcast_S8x1x2048_S8x4096x2048_0_1_2 : S8x1x2048.BroadcastsInDim S8x4096x2048 (![0, 1, 2] : Fin 3 → Fin S8x4096x2048.rank)
  bcast_S_S8x4096x2048 : S_.BroadcastsInDim S8x4096x2048 (![] : Fin 0 → Fin S8x4096x2048.rank)
  reducesTo_S8x4096x2048_S8x4096_d2 : S8x4096x2048.ReducesTo [2] S8x4096
  reducesTo_S8x4096_S_d0_1 : S8x4096.ReducesTo [0, 1] S_
  reducesTo_S8x4096x2048_S8x2048_d1 : S8x4096x2048.ReducesTo [1] S8x2048
  dot_S8x2048x3_S8x2048x3_S8x2048x2048_2_2_1_1_0_0_wf : DotDims.WF S8x2048x3 S8x2048x3 S8x2048x2048 [2] [2] [1] [1] [0] [0]
  dot_S8x4096x3_S8x2048x3_S8x4096x2048_2_2_1_1_0_0_wf : DotDims.WF S8x4096x3 S8x2048x3 S8x4096x2048 [2] [2] [1] [1] [0] [0]

variable [Facts₀]

def dot_S8x2048x3_S8x2048x3_S8x2048x2048_2_2_1_1_0_0 : DotDims S8x2048x3 S8x2048x3 S8x2048x2048 where
  lhsContracting := [2]
  rhsContracting := [2]
  lhsNonContracting := [1]
  rhsNonContracting := [1]
  lhsBatch := [0]
  rhsBatch := [0]
  wf := dot_S8x2048x3_S8x2048x3_S8x2048x2048_2_2_1_1_0_0_wf
def dot_S8x4096x3_S8x2048x3_S8x4096x2048_2_2_1_1_0_0 : DotDims S8x4096x3 S8x2048x3 S8x4096x2048 where
  lhsContracting := [2]
  rhsContracting := [2]
  lhsNonContracting := [1]
  rhsNonContracting := [1]
  lhsBatch := [0]
  rhsBatch := [0]
  wf := dot_S8x4096x3_S8x2048x3_S8x4096x2048_2_2_1_1_0_0_wf

class Facts : Prop extends Facts₀ where

variable [Facts]
-- ==== Proof.Spec.lean ====
/-
  The mathematics both programs compute, stated once over the extended reals.

  For two point clouds P : [8, Na, 3] and Q : [8, Nb, 3] (eight batches of points of ℝ³) the squared distance of
  point i of P and point j of Q in batch bb is taken in the expanded form |p|² + |q|² − 2 (p · q), each of the three
  sums over the coordinates taken from the left.  minOverQ P Q is, for each point of P, the least such distance to a
  point of Q; minOverP P Q is, for each point of Q, the least such distance to a point of P.  A minimum over a finite
  index set is the fold of min from ⊤, so that it does not matter in which order or grouping it is taken.
-/
import Idealize.ShloMosaic.PureOps.Ideal
import Idealize.ShloMosaic.Lib.ValueIdx

noncomputable section

namespace Cert.Chamfer

open Idealize.ShloMosaic Idealize.ShloMosaic.ValueIdx

/-- The f32 word of the factor two in − 2 (p · q), as an extended real. -/
abbrev two : EReal := Ideal.ofBits .f32 0x40000000#32

/-- The expanded squared distance of two points of ℝ³ given by their coordinates. -/
def sqd3 (p0 p1 p2 q0 q1 q2 : EReal) : EReal :=
  (((p0 * p0 + p1 * p1) + p2 * p2) + ((q0 * q0 + q1 * q1) + q2 * q2)) - two * ((p0 * q0 + p1 * q1) + p2 * q2)

/-- The same between point i of a [1, Na, 3] block and point j of a [1, Nb, 3] block. -/
def bsqd {Na Nb : ℕ} (x0 : (⟨3, ![1, Na, 3]⟩ : Shape).Idx → EReal) (x1 : (⟨3, ![1, Nb, 3]⟩ : Shape).Idx → EReal)
    (i : Fin Na) (j : Fin Nb) : EReal :=
  sqd3 (x0 (ix3 0 i 0)) (x0 (ix3 0 i 1)) (x0 (ix3 0 i 2)) (x1 (ix3 0 j 0)) (x1 (ix3 0 j 1)) (x1 (ix3 0 j 2))

/-- The same between point i of batch bb of P and point j of batch bb of Q. -/
def sqd {Na Nb : ℕ} (P : (⟨3, ![8, Na, 3]⟩ : Shape).Idx → EReal) (Q : (⟨3, ![8, Nb, 3]⟩ : Shape).Idx → EReal)
    (bb : Fin 8) (i : Fin Na) (j : Fin Nb) : EReal :=
  sqd3 (P (ix3 bb i 0)) (P (ix3 bb i 1)) (P (ix3 bb i 2)) (Q (ix3 bb j 0)) (Q (ix3 bb j 1)) (Q (ix3 bb j 2))

/-- Batch bb of a cloud, as a [1, N, 3] block. -/
def batch {N : ℕ} (P : (⟨3, ![8, N, 3]⟩ : Shape).Idx → EReal) (bb : Fin 8) : (⟨3, ![1, N, 3]⟩ : Shape).Idx → EReal :=
  fun y => P (ix3 bb (y 1) (y 2))

theorem sqd_eq_bsqd {Na Nb : ℕ} (P : (⟨3, ![8, Na, 3]⟩ : Shape).Idx → EReal) (Q : (⟨3, ![8, Nb, 3]⟩ : Shape).Idx → EReal)
    (bb : Fin 8) (i : Fin Na) (j : Fin Nb) : sqd P Q bb i j = bsqd (batch P bb) (batch Q bb) i j := rfl

/-- For each point of P, the least squared distance to a point of Q of the same batch. -/
def minOverQ {Na Nb : ℕ} (P : (⟨3, ![8, Na, 3]⟩ : Shape).Idx → EReal) (Q : (⟨3, ![8, Nb, 3]⟩ : Shape).Idx → EReal) :
    (⟨2, ![8, Na]⟩ : Shape).Idx → EReal :=
  fun y => (Finset.univ : Finset (Fin Nb)).fold min ⊤ (fun j => sqd P Q (y 0) (y 1) j)

/-- For each point of Q, the least squared distance to a point of P of the same batch. -/
def minOverP {Na Nb : ℕ} (P : (⟨3, ![8, Na, 3]⟩ : Shape).Idx → EReal) (Q : (⟨3, ![8, Nb, 3]⟩ : Shape).Idx → EReal) :
    (⟨2, ![8, Nb]⟩ : Shape).Idx → EReal :=
  fun y => (Finset.univ : Finset (Fin Na)).fold min ⊤ (fun i => sqd P Q (y 0) i (y 1))

/-! ## The loss: four means of the nearest squared distances, the second weighted -/

abbrev S0 : Shape := ⟨0, ![]⟩
abbrev S8x2048 : Shape := ⟨2, ![8, 2048]⟩
abbrev S8x4096 : Shape := ⟨2, ![8, 4096]⟩
abbrev S8x3x2048 : Shape := ⟨3, ![8, 3, 2048]⟩

/-- The weight of each point of the first pair's second cloud: one plus the logistic function of the sum of its three
    weight-map entries, written 1 / (1 + exp (−s)) + 1. -/
def weight (x2 : S8x3x2048.Idx → EReal) : S8x2048.Idx → EReal :=
  addf (F := Ideal) (φ := .f32)
    (Host.divf (F := Ideal) (φ := .f32) (broadcastInDim S8x2048 ![] (by decide) (constant (F := Ideal) S0 .f32 0x3F800000#32))
      (addf (F := Ideal) (φ := .f32) (broadcastInDim S8x2048 ![] (by decide) (constant (F := Ideal) S0 .f32 0x3F800000#32))
        (Host.exp (F := Ideal) (φ := .f32) (Host.negf (F := Ideal) (φ := .f32)
          (Host.reduceAdd (F := Ideal) (φ := .f32) (t := S8x2048) (axes := [1]) x2 (constant (F := Ideal) S0 .f32 0x00000000#32) (by decide) (by decide))))))
    (broadcastInDim S8x2048 ![] (by decide) (constant (F := Ideal) S0 .f32 0x3F800000#32))

/-- The sum of all entries of an array divided by the f32 word c (the number of entries). -/
def meanBy {s : Shape} (c : BitVec 32) (x : s.Idx → EReal) (h : s.ReducesTo (List.finRange s.rank) S0) : S0.Idx → EReal :=
  Host.divf (F := Ideal) (φ := .f32)
    (Host.reduceAdd (F := Ideal) (φ := .f32) (t := S0) x (constant (F := Ideal) S0 .f32 0x00000000#32) h (by decide))
    (constant (F := Ideal) S0 .f32 c)

/-- The loss from the weight w, the first pair's two arrays of nearest distances (p1 per point of the first cloud, q1
    per point of the second) and the second pair's (p2, q2). -/
def loss (w p1 q1 : S8x2048.Idx → EReal) (p2 : S8x4096.Idx → EReal) (q2 : S8x2048.Idx → EReal) : S0.Idx → EReal :=
  addf (F := Ideal) (φ := .f32)
    (addf (F := Ideal) (φ := .f32) (meanBy 0x46800000#32 p1 (by decide)) (meanBy 0x46800000#32 (mulf (F := Ideal) (φ := .f32) q1 w) (by decide)))
    (addf (F := Ideal) (φ := .f32) (meanBy 0x47000000#32 p2 (by decide)) (meanBy 0x46800000#32 q2 (by decide)))

end Cert.Chamfer

end
-- ==== Proof.LibChunkMin.lean ====
/-
  A minimum taken chunk by chunk, and the vector operations around it read at an index.

  * The f32 word 0x7F800000 is the greatest extended real, so a fold of min from it is the minimum of the folded values.
  * A lane or sublane minimum of an [a, b] array (vector.multi_reduction <minimumf> over one axis, from that word) read at
    an index: the fold of min from ⊤ over the coordinates of the reduced axis.
  * The minimum over 2048 = 8 · 256 entries taken as a running minimum, from ⊤, of the eight minima over 256 consecutive
    entries, is the minimum over all of them: a minimum does not depend on grouping or order.
  * A slice of an [a, b] array with offsets on both axes, a rank-1 array seen as [1, 1, a], and an [a, 1] column seen
    as a rank-1 array, each read at an index by coordinates.
-/
import Idealize.ShloMosaic.Lib.Pipeline.Value
import Idealize.ShloMosaic.Lib.ValueIdx
import Idealize.ShloMosaic.Lib.ValueLayout
import Idealize.ShloMosaic.PureOps.Ideal.Laws

namespace Cert.Lib.ChunkMin

open Idealize.ShloMosaic Idealize.ShloMosaic.ValueIdx

/-- The f32 pattern of +∞ is the greatest extended real. -/
theorem ofBits_posInf_f32 : Ideal.ofBits .f32 0x7F800000#32 = (⊤ : EReal) := by
  simp [Ideal.ofBits, Ideal.ieee]

/-! ## A one-axis minimum of a rank-2 array read at an index -/

/-- Inserting coordinate k on axis 1 over the rank-1 index i gives (i, k). -/
theorem lift_axis1 {n0 n1 : ℕ} (h : (⟨2, ![n0, n1]⟩ : Shape).Reduces [1] ⟨1, ![n0]⟩) (i : Fin n0) (k : Fin n1) :
    h.lift (ix1 i) k = ix2 i k := by
  funext a
  apply Fin.ext
  match a with
  | ⟨0, _⟩ => rfl
  | ⟨1, _⟩ => rfl

/-- Inserting coordinate k on axis 0 over the rank-1 index j gives (k, j). -/
theorem lift_axis0 {n0 n1 : ℕ} (h : (⟨2, ![n0, n1]⟩ : Shape).Reduces [0] ⟨1, ![n1]⟩) (j : Fin n1) (k : Fin n0) :
    h.lift (ix1 j) k = ix2 k j := by
  funext a
  apply Fin.ext
  match a with
  | ⟨0, _⟩ => rfl
  | ⟨1, _⟩ => rfl

/-- The minimum along the rows (axis 1) of an [n0, n1] array, from +∞, at row i: the least entry of the row. -/
theorem minReduce_axis1_apply {n0 n1 : ℕ} (src : FVec Ideal ⟨2, ![n0, n1]⟩ .f32)
    (h : (⟨2, ![n0, n1]⟩ : Shape).Reduces [1] ⟨1, ![n0]⟩) (hφ : FKind.Formats .f32)
    (hacc : (0x7F800000#32 : BitVec 32) = FKind.minimumf.neutral .f32 hφ) (i : Fin n0) :
    multiReduction .minimumf [1] ⟨1, ![n0]⟩ src 0x7F800000#32 h hφ hacc (ix1 i)
      = (Finset.univ : Finset (Fin n1)).fold min ⊤ (fun j => src (ix2 i j)) := by
  rw [multiReduction_minimumf_eq_fold, h.fold_filter_drop_single]
  show (Finset.univ : Finset (Fin n1)).fold min (Ideal.ofBits .f32 0x7F800000#32) (fun j => src (h.lift (ix1 i) j)) = _
  rw [ofBits_posInf_f32]
  exact congrArg (fun f => Finset.fold min ⊤ f Finset.univ) (funext fun j => congrArg src (lift_axis1 h i j))

/-- The minimum down the columns (axis 0) of an [n0, n1] array, from +∞, at column j: the least entry of the column. -/
theorem minReduce_axis0_apply {n0 n1 : ℕ} (src : FVec Ideal ⟨2, ![n0, n1]⟩ .f32)
    (h : (⟨2, ![n0, n1]⟩ : Shape).Reduces [0] ⟨1, ![n1]⟩) (hφ : FKind.Formats .f32)
    (hacc : (0x7F800000#32 : BitVec 32) = FKind.minimumf.neutral .f32 hφ) (j : Fin n1) :
    multiReduction .minimumf [0] ⟨1, ![n1]⟩ src 0x7F800000#32 h hφ hacc (ix1 j)
      = (Finset.univ : Finset (Fin n0)).fold min ⊤ (fun i => src (ix2 i j)) := by
  rw [multiReduction_minimumf_eq_fold, h.fold_filter_drop_single]
  show (Finset.univ : Finset (Fin n0)).fold min (Ideal.ofBits .f32 0x7F800000#32) (fun k => src (h.lift (ix1 j) k)) = _
  rw [ofBits_posInf_f32]
  exact congrArg (fun f => Finset.fold min ⊤ f Finset.univ) (funext fun k => congrArg src (lift_axis0 h j k))

/-! ## Eight chunks of 256 make 2048 -/

/-- The running minimum, from ⊤, of the minima over the eight chunks of 256 consecutive entries is the minimum over all
    2048 entries. -/
theorem fold_min_chunks {α : Type} [LinearOrder α] [OrderTop α] (f : Fin 2048 → α) (g : Fin 8 → Fin 256 → α)
    (hg : ∀ (k : Fin 8) (j : Fin 256), g k j = f ⟨256 * k.val + j.val, by have := k.isLt; have := j.isLt; omega⟩) :
    min (min (min (min (min (min (min (min ⊤
        ((Finset.univ : Finset (Fin 256)).fold min ⊤ (g 0))) ((Finset.univ : Finset (Fin 256)).fold min ⊤ (g 1)))
        ((Finset.univ : Finset (Fin 256)).fold min ⊤ (g 2))) ((Finset.univ : Finset (Fin 256)).fold min ⊤ (g 3)))
        ((Finset.univ : Finset (Fin 256)).fold min ⊤ (g 4))) ((Finset.univ : Finset (Fin 256)).fold min ⊤ (g 5)))
        ((Finset.univ : Finset (Fin 256)).fold min ⊤ (g 6))) ((Finset.univ : Finset (Fin 256)).fold min ⊤ (g 7))
      = (Finset.univ : Finset (Fin 2048)).fold min ⊤ f := by
  refine eq_of_forall_le_iff fun c => ?_
  simp only [le_min_iff, Finset.le_fold_min, le_top, true_and, Finset.mem_univ, forall_true_left]
  constructor
  · rintro ⟨⟨⟨⟨⟨⟨⟨h0, h1⟩, h2⟩, h3⟩, h4⟩, h5⟩, h6⟩, h7⟩ x
    have hx := x.isLt
    have key : ∀ (k : Fin 8) (j : Fin 256), c ≤ g k j := fun k =>
      match k with
      | ⟨0, _⟩ => h0 | ⟨1, _⟩ => h1 | ⟨2, _⟩ => h2 | ⟨3, _⟩ => h3
      | ⟨4, _⟩ => h4 | ⟨5, _⟩ => h5 | ⟨6, _⟩ => h6 | ⟨7, _⟩ => h7
    have hk := key ⟨x.val / 256, by omega⟩ ⟨x.val % 256, Nat.mod_lt _ (by norm_num)⟩
    rw [hg] at hk
    have ex : (⟨256 * (x.val / 256) + x.val % 256, by omega⟩ : Fin 2048) = x := Fin.ext (Nat.div_add_mod _ _)
    rwa [ex] at hk
  · intro h
    refine ⟨⟨⟨⟨⟨⟨⟨?_, ?_⟩, ?_⟩, ?_⟩, ?_⟩, ?_⟩, ?_⟩, ?_⟩ <;> intro j <;> rw [hg] <;> exact h _

/-! ## Layout operations read at an index -/

variable {α : Type}

/-- A slice of an [n0, n1] array at offsets (o0, o1), read at (p, q): the operand at (o0 + p, o1 + q), the caller naming
    that index by its two coordinates. -/
theorem slice2_apply {n0 n1 m0 m1 : ℕ} (o0 o1 : ℕ) (x : (⟨2, ![n0, n1]⟩ : Shape).Idx → α)
    (h : (⟨2, ![n0, n1]⟩ : Shape).Slices ![o0, o1] ⟨2, ![m0, m1]⟩) (p : Fin m0) (q : Fin m1)
    (k0 : Fin n0) (k1 : Fin n1) (e0 : k0.val = o0 + p.val) (e1 : k1.val = o1 + q.val) :
    extractStridedSlice ⟨2, ![m0, m1]⟩ ![o0, o1] x h (ix2 p q) = x (ix2 k0 k1) :=
  extractStridedSlice_apply _ x h _ _ fun a => by
    match a with
    | ⟨0, _⟩ => exact e0
    | ⟨1, _⟩ => exact e1

/-- A rank-1 array of a entries cast to [1, 1, a] reads, at (u0, u1, i), the operand at i. -/
theorem shapeCast_a_11a_apply {a : ℕ} (x : (⟨1, ![a]⟩ : Shape).Idx → α) (h : (⟨1, ![a]⟩ : Shape).ShapeCasts ⟨3, ![1, 1, a]⟩)
    (u0 u1 : Fin 1) (i : Fin a) : shapeCast ⟨3, ![1, 1, a]⟩ x h (ix3 u0 u1 i) = x (ix1 i) :=
  shapeCast_apply x h _ _ (by
    have h0 : u0.val = 0 := by omega
    have h1 : u1.val = 0 := by omega
    rw [Shape.rowMajor_val_three, Shape.rowMajor_val_one]
    show i.val = (u0.val * 1 + u1.val) * a + i.val
    rw [h0, h1]; simp)

/-- An [a, 1] column cast to a rank-1 array of a entries reads, at i, the column's entry of row i. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.Lib.ChunkMin
-- ==== Proof.LibColumn.lean ====
/-
  Column vectors read at an index: a rank-1 array of `a` entries seen as an [a, 1] column, and an [a, 1] column
  broadcast across `b` columns. The library reads the ROW forms ([a] as [1, a]; [1, b] over [a, b]) by coordinates;
  these are the transposed cases, in the same style: the reshape by equating row-major positions, the broadcast by
  giving, per axis of the operand, the coordinate it is read at (0 on its unit axis).
-/
import Idealize.ShloMosaic.Lib.Pipeline.Value
import Idealize.ShloMosaic.Lib.ValueIdx

namespace Cert.Lib.Column

open Idealize.ShloMosaic Idealize.ShloMosaic.ValueIdx

variable {α : Type}

/-- A rank-1 array of `a` entries cast to an [a, 1] column reads, at `(i, u)`, the operand at `i`, whatever the unit
    coordinate `u`: entry `(i, u)` of the column sits at row-major position `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.KernelBody0.lean ====
/-
  What the body of the first launch leaves in its two output blocks, read at an index: entry i of the first is the least
  squared distance from point i of the first input block to the points of the second; entry j of the second is the
  least squared distance from point j of the second input block to the points of the first.

  The body takes the 2048 points of the second block in eight chunks of 256.  For chunk k it forms the 2048 × 256 array
  of expanded squared distances |p|² + |q|² − 2 (p · q) from the columns of the first block and the rows of the
  transposed second block, takes its minimum down the columns (stored at lanes 256 k … 256 k + 255 of the second output)
  and its minimum along the rows (folded into a running minimum that starts at +∞ and is stored as the first output).
-/
import proofs.«418857_j12506944766656_3_alg».proof.Proof.Spec
import proofs.«418857_j12506944766656_3_alg».proof.Proof.LibChunkMin
import proofs.«418857_j12506944766656_3_alg».proof.Proof.LibColumn
import proofs.«418857_j12506944766656_3_alg».proof.Proof.Gen.KernelIdeal.Frame
import Idealize.ShloMosaic.Lib.ValueLayout

set_option maxRecDepth 16384

noncomputable section

namespace Cert.KernelIdeal.Body

open Idealize.ShloMosaic Idealize.ShloMosaic.ValueIdx Cert.KernelIdeal Cert.KernelIdeal.Gen Cert.Chamfer
open Cert.Lib.ChunkMin Cert.Lib.Column

/-! ## The vectors the chunks are formed from -/

/-- The second block transposed: coordinate d of point jj. -/
theorem k0_bt_apply (x1 : Vec Ideal S1x2048x3 .f32) (d : Fin 3) (jj : Fin 2048) :
    k0_pay3 (F := Ideal) x1 (ix2 d jj) = x1 (ix3 0 jj d) := by
  unfold k0_pay3
  rw [transpose_ix2_apply, shapeCast_1ab_ab_apply]

/-- The three coordinate columns of the first block. -/
theorem k0_a0_apply (x0 : Vec Ideal S1x2048x3 .f32) (i : Fin 2048) :
    k0_pay4 (F := Ideal) x0 (ix2 i 0) = x0 (ix3 0 i 0) := by
  unfold k0_pay4 k0_pay2
  rw [slice2_apply 0 0 _ _ i 0 i 0 (by simp) (by simp), shapeCast_1ab_ab_apply]
theorem k0_a1_apply (x0 : Vec Ideal S1x2048x3 .f32) (i : Fin 2048) :
    k0_pay5 (F := Ideal) x0 (ix2 i 0) = x0 (ix3 0 i 1) := by
  unfold k0_pay5 k0_pay2
  rw [slice2_apply 0 1 _ _ i 0 i 1 (by simp) (by simp), shapeCast_1ab_ab_apply]
theorem k0_a2_apply (x0 : Vec Ideal S1x2048x3 .f32) (i : Fin 2048) :
    k0_pay6 (F := Ideal) x0 (ix2 i 0) = x0 (ix3 0 i 2) := by
  unfold k0_pay6 k0_pay2
  rw [slice2_apply 0 2 _ _ i 0 i 2 (by simp) (by simp), shapeCast_1ab_ab_apply]

/-- The squared norms of the first block's points. -/
theorem k0_an_apply (x0 : Vec Ideal S1x2048x3 .f32) (i : Fin 2048) :
    k0_pay7 (F := Ideal) x0 (ix2 i 0)
      = (x0 (ix3 0 i 0) * x0 (ix3 0 i 0) + x0 (ix3 0 i 1) * x0 (ix3 0 i 1)) + x0 (ix3 0 i 2) * x0 (ix3 0 i 2) := by
  unfold k0_pay7
  simp only [addf_apply, mulf_apply, k0_a0_apply, k0_a1_apply, k0_a2_apply]

/-! ## One chunk's array of squared distances -/

/-- Entry (i, jj) of the distance array, from the transposed second block v4, the first block's coordinate columns
    v5 v6 v7 and its squared norms v12. -/
def cdist0 (v4 : FVec Ideal S3x2048 .f32) (v5 v6 v7 v12 : FVec Ideal S2048x1 .f32) (i jj : Fin 2048) : EReal :=
  (v12 (ix2 i 0) + ((v4 (ix2 0 jj) * v4 (ix2 0 jj) + v4 (ix2 1 jj) * v4 (ix2 1 jj)) + v4 (ix2 2 jj) * v4 (ix2 2 jj)))
    - two * ((v5 (ix2 i 0) * v4 (ix2 0 jj) + v6 (ix2 i 0) * v4 (ix2 1 jj)) + v7 (ix2 i 0) * v4 (ix2 2 jj))

/-- Formed from the two blocks, it is the expanded squared distance of point i of the first and point jj of the second. -/
theorem cdist0_eq (x0 x1 : Vec Ideal S1x2048x3 .f32) (i jj : Fin 2048) :
    cdist0 (k0_pay3 (F := Ideal) x1) (k0_pay4 (F := Ideal) x0) (k0_pay5 (F := Ideal) x0) (k0_pay6 (F := Ideal) x0)
      (k0_pay7 (F := Ideal) x0) i jj = bsqd x0 x1 i jj := by
  unfold cdist0 bsqd sqd3
  rw [k0_an_apply, k0_a0_apply, k0_a1_apply, k0_a2_apply]
  simp only [k0_bt_apply]

/-- Row d of the transposed block cut to the 256 lanes from off on, read at lane j. -/
theorem bt_slice (v4 : FVec Ideal S3x2048 .f32) (d off : ℕ) (h : S3x2048.Slices ![d, off] S1x256) (j : Fin 256) :
    extractStridedSlice S1x256 ![d, off] v4 h (ix2 (0 : Fin 1) j)
      = v4 (ix2 ⟨d, Nat.lt_of_succ_le (h.2 0)⟩ ⟨off + j.val, by have e : off + 256 ≤ 2048 := h.2 1; omega⟩) :=
  extractStridedSlice_apply _ v4 h _ _ fun a => by
    match a with
    | ⟨0, _⟩ => rfl
    | ⟨1, _⟩ => rfl

local macro "chunk_tac" : tactic => `(tactic| (
  simp only [subf_apply, addf_apply, mulf_apply, broadcast_apply, broadcastTo_a1_ab_apply, broadcastTo_1b_ab_apply,
    bt_slice, Ideal.ofBits_def]
  rfl))

theorem chunk1 (v4 : FVec Ideal S3x2048 .f32) (v5 v6 v7 v12 : FVec Ideal S2048x1 .f32) (i : Fin 2048) (j : Fin 256) :
    k0_pay12 (F := Ideal) v4 v5 v6 v7 v12 (ix2 i j) = cdist0 v4 v5 v6 v7 v12 i ⟨256 + j.val, by omega⟩ := by
  unfold k0_pay12 cdist0
  chunk_tac

theorem chunk0 (x0 x1 : Vec Ideal S1x2048x3 .f32) (i : Fin 2048) (j : Fin 256) :
    k0_pay8 (F := Ideal) x0 x1 (ix2 i j)
      = cdist0 (k0_pay3 (F := Ideal) x1) (k0_pay4 (F := Ideal) x0) (k0_pay5 (F := Ideal) x0) (k0_pay6 (F := Ideal) x0)
          (k0_pay7 (F := Ideal) x0) i ⟨0 + j.val, by omega⟩ := by
  unfold k0_pay8 cdist0
  chunk_tac

theorem chunk2 (v4 : FVec Ideal S3x2048 .f32) (v5 v6 v7 v12 : FVec Ideal S2048x1 .f32) (i : Fin 2048) (j : Fin 256) :
    k0_pay21 (F := Ideal) v12 (k0_pay17 (F := Ideal) v4) (k0_pay18 (F := Ideal) v4) (k0_pay19 (F := Ideal) v4 v5 v6)
      (k0_pay20 (F := Ideal) v7) (ix2 i j) = cdist0 v4 v5 v6 v7 v12 i ⟨512 + j.val, by omega⟩ := by
  unfold k0_pay21 k0_pay20 k0_pay19 k0_pay18 k0_pay17 k0_pay16 k0_pay15 cdist0
  chunk_tac

theorem chunk3 (v4 : FVec Ideal S3x2048 .f32) (v5 v6 v7 v12 : FVec Ideal S2048x1 .f32) (i : Fin 2048) (j : Fin 256) :
    k0_pay23 (F := Ideal) v4 v5 v6 v7 v12 (ix2 i j) = cdist0 v4 v5 v6 v7 v12 i ⟨768 + j.val, by omega⟩ := by
  unfold k0_pay23 cdist0
  chunk_tac

theorem chunk4 (v4 : FVec Ideal S3x2048 .f32) (v5 v6 v7 v12 : FVec Ideal S2048x1 .f32) (i : Fin 2048) (j : Fin 256) :
    k0_pay27 (F := Ideal) v4 v5 v6 v7 v12 (ix2 i j) = cdist0 v4 v5 v6 v7 v12 i ⟨1024 + j.val, by omega⟩ := by
  unfold k0_pay27 cdist0
  chunk_tac

theorem chunk5 (v4 : FVec Ideal S3x2048 .f32) (v5 v6 v7 v12 : FVec Ideal S2048x1 .f32) (i : Fin 2048) (j : Fin 256) :
    k0_pay37 (F := Ideal) v7 v12 (k0_pay32 (F := Ideal) v4) (k0_pay33 (F := Ideal) v4) (k0_pay34 (F := Ideal) v4 v5)
      (k0_pay35 (F := Ideal) v6) (k0_pay36 (F := Ideal) v4) (ix2 i j) = cdist0 v4 v5 v6 v7 v12 i ⟨1280 + j.val, by omega⟩ := by
  unfold k0_pay37 k0_pay36 k0_pay35 k0_pay34 k0_pay33 k0_pay32 k0_pay31 k0_pay30 cdist0
  chunk_tac

theorem chunk6 (v4 : FVec Ideal S3x2048 .f32) (v5 v6 v7 v12 : FVec Ideal S2048x1 .f32) (i : Fin 2048) (j : Fin 256) :
    k0_pay39 (F := Ideal) v4 v5 v6 v7 v12 (ix2 i j) = cdist0 v4 v5 v6 v7 v12 i ⟨1536 + j.val, by omega⟩ := by
  unfold k0_pay39 cdist0
  chunk_tac

theorem chunk7 (v4 : FVec Ideal S3x2048 .f32) (v5 v6 v7 v12 : FVec Ideal S2048x1 .f32) (i : Fin 2048) (j : Fin 256) :
    k0_pay43 (F := Ideal) v4 v5 v6 v7 v12 (ix2 i j) = cdist0 v4 v5 v6 v7 v12 i ⟨1792 + j.val, by omega⟩ := by
  unfold k0_pay43 cdist0
  chunk_tac

/-! ## The running minimum along the rows -/

/-- One chunk's minimum along the rows, seen as a column, at row i: the least entry of row i of the chunk's array. -/
theorem rowmin_apply (src : FVec Ideal S2048x256 .f32) (i : Fin 2048) :
    shapeCast S2048x1 (multiReduction .minimumf [1] S2048 src 0x7F800000#32 reduces_S2048x256_S2048 (.inl rfl) rfl)
        shapeCasts_S2048_S2048x1 (ix2 i 0)
      = (Finset.univ : Finset (Fin 256)).fold min ⊤ (fun j => src (ix2 i j)) :=
  (shapeCast_a_a1_apply _ _ i 0).trans (minReduce_axis1_apply src _ _ _ i)

theorem k0_row0 (x0 x1 : Vec Ideal S1x2048x3 .f32) (i : Fin 2048) :
    k0_pay9 (F := Ideal) x0 x1 (ix2 i 0)
      = min ⊤ ((Finset.univ : Finset (Fin 256)).fold min ⊤ (fun j => k0_pay8 (F := Ideal) x0 x1 (ix2 i j))) := by
  unfold k0_pay9
  refine (minimumf_apply _ _ _).trans ?_
  rw [rowmin_apply, broadcast_apply]
  exact congrArg (fun t => min t _) ofBits_posInf_f32

theorem k0_row1 (v4 : FVec Ideal S3x2048 .f32) (v5 v6 v7 v12 v41 : FVec Ideal S2048x1 .f32) (i : Fin 2048) :
    k0_pay13 (F := Ideal) v4 v5 v6 v7 v12 v41 (ix2 i 0)
      = min (v41 (ix2 i 0)) ((Finset.univ : Finset (Fin 256)).fold min ⊤ (fun j => k0_pay12 (F := Ideal) v4 v5 v6 v7 v12 (ix2 i j))) := by
  unfold k0_pay13
  simp only [minimumf_apply]
  rw [rowmin_apply]

theorem k0_row23 (v4 : FVec Ideal S3x2048 .f32) (v5 v6 v7 v12 v75 : FVec Ideal S2048x1 .f32) (v84 v89 : FVec Ideal S1x256 .f32)
    (v96 v97 : FVec Ideal S2048x256 .f32) (i : Fin 2048) :
    k0_pay24 (F := Ideal) v4 v5 v6 v7 v12 v75 v84 v89 v96 v97 (ix2 i 0)
      = min (min (v75 (ix2 i 0))
          ((Finset.univ : Finset (Fin 256)).fold min ⊤ (fun j => k0_pay21 (F := Ideal) v12 v84 v89 v96 v97 (ix2 i j))))
          ((Finset.univ : Finset (Fin 256)).fold min ⊤ (fun j => k0_pay23 (F := Ideal) v4 v5 v6 v7 v12 (ix2 i j))) := by
  unfold k0_pay24
  simp only [minimumf_apply]
  rw [rowmin_apply, rowmin_apply]

theorem k0_row4 (v4 : FVec Ideal S3x2048 .f32) (v5 v6 v7 v12 v143 : FVec Ideal S2048x1 .f32) (i : Fin 2048) :
    k0_pay28 (F := Ideal) v4 v5 v6 v7 v12 v143 (ix2 i 0)
      = min (v143 (ix2 i 0)) ((Finset.univ : Finset (Fin 256)).fold min ⊤ (fun j => k0_pay27 (F := Ideal) v4 v5 v6 v7 v12 (ix2 i j))) := by
  unfold k0_pay28
  simp only [minimumf_apply]
  rw [rowmin_apply]

theorem k0_row56 (v4 : FVec Ideal S3x2048 .f32) (v5 v6 v7 v12 v177 : FVec Ideal S2048x1 .f32) (v186 v191 : FVec Ideal S1x256 .f32)
    (v194 v195 v196 : FVec Ideal S2048x256 .f32) (i : Fin 2048) :
    k0_pay40 (F := Ideal) v4 v5 v6 v7 v12 v177 v186 v191 v194 v195 v196 (ix2 i 0)
      = min (min (v177 (ix2 i 0))
          ((Finset.univ : Finset (Fin 256)).fold min ⊤ (fun j => k0_pay37 (F := Ideal) v7 v12 v186 v191 v194 v195 v196 (ix2 i j))))
          ((Finset.univ : Finset (Fin 256)).fold min ⊤ (fun j => k0_pay39 (F := Ideal) v4 v5 v6 v7 v12 (ix2 i j))) := by
  unfold k0_pay40
  simp only [minimumf_apply]
  rw [rowmin_apply, rowmin_apply]

theorem k0_row7 (v4 : FVec Ideal S3x2048 .f32) (v5 v6 v7 v12 v245 : FVec Ideal S2048x1 .f32) (i : Fin 2048) :
    k0_pay45 (F := Ideal) v4 v5 v6 v7 v12 v245 (ix1 i)
      = min (v245 (ix2 i 0)) ((Finset.univ : Finset (Fin 256)).fold min ⊤ (fun j => k0_pay43 (F := Ideal) v4 v5 v6 v7 v12 (ix2 i j))) := by
  unfold k0_pay45
  rw [shapeCast_a1_a_apply]
  simp only [minimumf_apply]
  rw [rowmin_apply]

theorem hz3 : (![0, 0, 0] : Fin 3 → ℕ) = fun _ => 0 := funext fun a => by fin_cases a <;> rfl

/-- Entry i of the first output block: the least squared distance from point i of the first block to the 2048 points of
    the second, the running minimum over the eight chunks being the minimum over all of them. -/
theorem out0_2_apply (x0 x1 : Vec Ideal S1x2048x3 .f32) (i : Fin 2048) :
    out0_2 (F := Ideal) x0 x1 (ix3 0 0 i) = (Finset.univ : Finset (Fin 2048)).fold min ⊤ (fun j => bsqd x0 x1 i j) := by
  unfold out0_2
  rw [View.canon_unit_zero hz3]
  simp only [View.ld_unit_zero (S := S1x2048x3) hz3]
  unfold k0_pay1
  rw [shapeCast_a_11a_apply, k0_row7, k0_row56, k0_row4, k0_row23, k0_row1, k0_row0]
  refine Eq.trans ?_ (fold_min_chunks (fun jj => bsqd x0 x1 i jj)
    (fun k j => bsqd x0 x1 i ⟨256 * k.val + j.val, by have := k.isLt; have := j.isLt; omega⟩) (fun _ _ => rfl))
  simp only [chunk0, chunk1, chunk2, chunk3, chunk4, chunk5, chunk6, chunk7, cdist0_eq]
  rfl

/-! ## The minima down the columns, chunk by chunk -/

/-- One chunk's minimum down the columns, as it is stored: at lane j the least entry of column j of the chunk's array. -/
theorem colmin_apply (src : FVec Ideal S2048x256 .f32) (u0 u1 : Fin 1) (j : Fin 256) :
    shapeCast S1x1x256 (shapeCast S256 (shapeCast S1x256
        (multiReduction .minimumf [0] S256 src 0x7F800000#32 reduces_S2048x256_S256 (.inl rfl) rfl)
        shapeCasts_S256_S1x256) shapeCasts_S1x256_S256) shapeCasts_S256_S1x1x256 (ix3 u0 u1 j)
      = (Finset.univ : Finset (Fin 2048)).fold min ⊤ (fun i => src (ix2 i j)) :=
  (shapeCast_a_11a_apply _ _ u0 u1 j).trans ((shapeCast_1a_a_apply _ _ j).trans
    ((shapeCast_a_1a_apply _ _ 0 j).trans (minReduce_axis0_apply src _ _ _ j)))

/-- What the second output block holds at an index: the least squared distance from the point the lane names to the 2048
    points of the first block. -/
def colG (x0 x1 : Vec Ideal S1x2048x3 .f32) : S1x1x2048.Idx → EReal :=
  fun y => (Finset.univ : Finset (Fin 2048)).fold min ⊤ (fun i => bsqd x0 x1 i ⟨(y 2).val, (y 2).isLt⟩)

theorem k0_col0 (x0 x1 : Vec Ideal S1x2048x3 .f32) (u0 u1 : Fin 1) (j : Fin 256) :
    k0_pay11 (F := Ideal) (k0_pay10 (F := Ideal) x0 x1) (ix3 u0 u1 j)
      = colG x0 x1 (r0_1.emb (ix3 u0 u1 j)) := by
  unfold k0_pay11 k0_pay10
  refine (colmin_apply _ u0 u1 j).trans (congrArg (fun f => Finset.fold min ⊤ f Finset.univ) (funext fun i => ?_))
  refine (chunk0 x0 x1 i j).trans ((cdist0_eq x0 x1 i _).trans (congrArg (bsqd x0 x1 i) (Fin.ext ?_)))
  show 0 + j.val = 0 + 1 * j.val
  omega

theorem k0_col1 (x0 x1 : Vec Ideal S1x2048x3 .f32) (u0 u1 : Fin 1) (j : Fin 256) :
    k0_pay14 (F := Ideal) (k0_pay3 (F := Ideal) x1) (k0_pay4 (F := Ideal) x0) (k0_pay5 (F := Ideal) x0) (k0_pay6 (F := Ideal) x0) (k0_pay7 (F := Ideal) x0) (ix3 u0 u1 j)
      = colG x0 x1 (r0_2.emb (ix3 u0 u1 j)) := by
  unfold k0_pay14
  refine (colmin_apply _ u0 u1 j).trans (congrArg (fun f => Finset.fold min ⊤ f Finset.univ) (funext fun i => ?_))
  refine (chunk1 (k0_pay3 (F := Ideal) x1) (k0_pay4 (F := Ideal) x0) (k0_pay5 (F := Ideal) x0) (k0_pay6 (F := Ideal) x0) (k0_pay7 (F := Ideal) x0) i j).trans ((cdist0_eq x0 x1 i _).trans (congrArg (bsqd x0 x1 i) (Fin.ext ?_)))
  show 256 + j.val = 256 + 1 * j.val
  omega

theorem k0_col2 (x0 x1 : Vec Ideal S1x2048x3 .f32) (u0 u1 : Fin 1) (j : Fin 256) :
    k0_pay22 (F := Ideal) (k0_pay7 (F := Ideal) x0) (k0_pay17 (F := Ideal) (k0_pay3 (F := Ideal) x1)) (k0_pay18 (F := Ideal) (k0_pay3 (F := Ideal) x1)) (k0_pay19 (F := Ideal) (k0_pay3 (F := Ideal) x1) (k0_pay4 (F := Ideal) x0) (k0_pay5 (F := Ideal) x0)) (k0_pay20 (F := Ideal) (k0_pay6 (F := Ideal) x0)) (ix3 u0 u1 j)
      = colG x0 x1 (r0_3.emb (ix3 u0 u1 j)) := by
  unfold k0_pay22
  refine (colmin_apply _ u0 u1 j).trans (congrArg (fun f => Finset.fold min ⊤ f Finset.univ) (funext fun i => ?_))
  refine (chunk2 (k0_pay3 (F := Ideal) x1) (k0_pay4 (F := Ideal) x0) (k0_pay5 (F := Ideal) x0) (k0_pay6 (F := Ideal) x0) (k0_pay7 (F := Ideal) x0) i j).trans ((cdist0_eq x0 x1 i _).trans (congrArg (bsqd x0 x1 i) (Fin.ext ?_)))
  show 512 + j.val = 512 + 1 * j.val
  omega

theorem k0_col3 (x0 x1 : Vec Ideal S1x2048x3 .f32) (u0 u1 : Fin 1) (j : Fin 256) :
    k0_pay26 (F := Ideal) (k0_pay25 (F := Ideal) (k0_pay3 (F := Ideal) x1) (k0_pay4 (F := Ideal) x0) (k0_pay5 (F := Ideal) x0) (k0_pay6 (F := Ideal) x0) (k0_pay7 (F := Ideal) x0)) (ix3 u0 u1 j)
      = colG x0 x1 (r0_4.emb (ix3 u0 u1 j)) := by
  unfold k0_pay26 k0_pay25
  refine (colmin_apply _ u0 u1 j).trans (congrArg (fun f => Finset.fold min ⊤ f Finset.univ) (funext fun i => ?_))
  refine (chunk3 (k0_pay3 (F := Ideal) x1) (k0_pay4 (F := Ideal) x0) (k0_pay5 (F := Ideal) x0) (k0_pay6 (F := Ideal) x0) (k0_pay7 (F := Ideal) x0) i j).trans ((cdist0_eq x0 x1 i _).trans (congrArg (bsqd x0 x1 i) (Fin.ext ?_)))
  show 768 + j.val = 768 + 1 * j.val
  omega

theorem k0_col4 (x0 x1 : Vec Ideal S1x2048x3 .f32) (u0 u1 : Fin 1) (j : Fin 256) :
    k0_pay29 (F := Ideal) (k0_pay3 (F := Ideal) x1) (k0_pay4 (F := Ideal) x0) (k0_pay5 (F := Ideal) x0) (k0_pay6 (F := Ideal) x0) (k0_pay7 (F := Ideal) x0) (ix3 u0 u1 j)
      = colG x0 x1 (r0_5.emb (ix3 u0 u1 j)) := by
  unfold k0_pay29
  refine (colmin_apply _ u0 u1 j).trans (congrArg (fun f => Finset.fold min ⊤ f Finset.univ) (funext fun i => ?_))
  refine (chunk4 (k0_pay3 (F := Ideal) x1) (k0_pay4 (F := Ideal) x0) (k0_pay5 (F := Ideal) x0) (k0_pay6 (F := Ideal) x0) (k0_pay7 (F := Ideal) x0) i j).trans ((cdist0_eq x0 x1 i _).trans (congrArg (bsqd x0 x1 i) (Fin.ext ?_)))
  show 1024 + j.val = 1024 + 1 * j.val
  omega

theorem k0_col5 (x0 x1 : Vec Ideal S1x2048x3 .f32) (u0 u1 : Fin 1) (j : Fin 256) :
    k0_pay38 (F := Ideal) (k0_pay6 (F := Ideal) x0) (k0_pay7 (F := Ideal) x0) (k0_pay32 (F := Ideal) (k0_pay3 (F := Ideal) x1)) (k0_pay33 (F := Ideal) (k0_pay3 (F := Ideal) x1)) (k0_pay34 (F := Ideal) (k0_pay3 (F := Ideal) x1) (k0_pay4 (F := Ideal) x0)) (k0_pay35 (F := Ideal) (k0_pay5 (F := Ideal) x0)) (k0_pay36 (F := Ideal) (k0_pay3 (F := Ideal) x1)) (ix3 u0 u1 j)
      = colG x0 x1 (r0_6.emb (ix3 u0 u1 j)) := by
  unfold k0_pay38
  refine (colmin_apply _ u0 u1 j).trans (congrArg (fun f => Finset.fold min ⊤ f Finset.univ) (funext fun i => ?_))
  refine (chunk5 (k0_pay3 (F := Ideal) x1) (k0_pay4 (F := Ideal) x0) (k0_pay5 (F := Ideal) x0) (k0_pay6 (F := Ideal) x0) (k0_pay7 (F := Ideal) x0) i j).trans ((cdist0_eq x0 x1 i _).trans (congrArg (bsqd x0 x1 i) (Fin.ext ?_)))
  show 1280 + j.val = 1280 + 1 * j.val
  omega

theorem k0_col6 (x0 x1 : Vec Ideal S1x2048x3 .f32) (u0 u1 : Fin 1) (j : Fin 256) :
    k0_pay42 (F := Ideal) (k0_pay41 (F := Ideal) (k0_pay3 (F := Ideal) x1) (k0_pay4 (F := Ideal) x0) (k0_pay5 (F := Ideal) x0) (k0_pay6 (F := Ideal) x0) (k0_pay7 (F := Ideal) x0)) (ix3 u0 u1 j)
      = colG x0 x1 (r0_7.emb (ix3 u0 u1 j)) := by
  unfold k0_pay42 k0_pay41
  refine (colmin_apply _ u0 u1 j).trans (congrArg (fun f => Finset.fold min ⊤ f Finset.univ) (funext fun i => ?_))
  refine (chunk6 (k0_pay3 (F := Ideal) x1) (k0_pay4 (F := Ideal) x0) (k0_pay5 (F := Ideal) x0) (k0_pay6 (F := Ideal) x0) (k0_pay7 (F := Ideal) x0) i j).trans ((cdist0_eq x0 x1 i _).trans (congrArg (bsqd x0 x1 i) (Fin.ext ?_)))
  show 1536 + j.val = 1536 + 1 * j.val
  omega

theorem k0_col7 (x0 x1 : Vec Ideal S1x2048x3 .f32) (u0 u1 : Fin 1) (j : Fin 256) :
    k0_pay44 (F := Ideal) (k0_pay3 (F := Ideal) x1) (k0_pay4 (F := Ideal) x0) (k0_pay5 (F := Ideal) x0) (k0_pay6 (F := Ideal) x0) (k0_pay7 (F := Ideal) x0) (ix3 u0 u1 j)
      = colG x0 x1 (r0_8.emb (ix3 u0 u1 j)) := by
  unfold k0_pay44
  refine (colmin_apply _ u0 u1 j).trans (congrArg (fun f => Finset.fold min ⊤ f Finset.univ) (funext fun i => ?_))
  refine (chunk7 (k0_pay3 (F := Ideal) x1) (k0_pay4 (F := Ideal) x0) (k0_pay5 (F := Ideal) x0) (k0_pay6 (F := Ideal) x0) (k0_pay7 (F := Ideal) x0) i j).trans ((cdist0_eq x0 x1 i _).trans (congrArg (bsqd x0 x1 i) (Fin.ext ?_)))
  show 1792 + j.val = 1792 + 1 * j.val
  omega

theorem k0_piece0 (x0 x1 : Vec Ideal S1x2048x3 .f32) (x : r0_1.shape.Idx) :
    k0_pay11 (F := Ideal) (k0_pay10 (F := Ideal) x0 x1) x = colG x0 x1 (r0_1.emb x) := by
  obtain ⟨u0, u1, j, rfl⟩ : ∃ (u0 u1 : Fin 1) (j : Fin 256), x = ix3 u0 u1 j := ⟨x 0, x 1, x 2, eq_ix3 x⟩
  exact k0_col0 x0 x1 u0 u1 j

theorem k0_piece1 (x0 x1 : Vec Ideal S1x2048x3 .f32) (x : r0_2.shape.Idx) :
    k0_pay14 (F := Ideal) (k0_pay3 (F := Ideal) x1) (k0_pay4 (F := Ideal) x0) (k0_pay5 (F := Ideal) x0) (k0_pay6 (F := Ideal) x0) (k0_pay7 (F := Ideal) x0) x = colG x0 x1 (r0_2.emb x) := by
  obtain ⟨u0, u1, j, rfl⟩ : ∃ (u0 u1 : Fin 1) (j : Fin 256), x = ix3 u0 u1 j := ⟨x 0, x 1, x 2, eq_ix3 x⟩
  exact k0_col1 x0 x1 u0 u1 j

theorem k0_piece2 (x0 x1 : Vec Ideal S1x2048x3 .f32) (x : r0_3.shape.Idx) :
    k0_pay22 (F := Ideal) (k0_pay7 (F := Ideal) x0) (k0_pay17 (F := Ideal) (k0_pay3 (F := Ideal) x1)) (k0_pay18 (F := Ideal) (k0_pay3 (F := Ideal) x1)) (k0_pay19 (F := Ideal) (k0_pay3 (F := Ideal) x1) (k0_pay4 (F := Ideal) x0) (k0_pay5 (F := Ideal) x0)) (k0_pay20 (F := Ideal) (k0_pay6 (F := Ideal) x0)) x = colG x0 x1 (r0_3.emb x) := by
  obtain ⟨u0, u1, j, rfl⟩ : ∃ (u0 u1 : Fin 1) (j : Fin 256), x = ix3 u0 u1 j := ⟨x 0, x 1, x 2, eq_ix3 x⟩
  exact k0_col2 x0 x1 u0 u1 j

theorem k0_piece3 (x0 x1 : Vec Ideal S1x2048x3 .f32) (x : r0_4.shape.Idx) :
    k0_pay26 (F := Ideal) (k0_pay25 (F := Ideal) (k0_pay3 (F := Ideal) x1) (k0_pay4 (F := Ideal) x0) (k0_pay5 (F := Ideal) x0) (k0_pay6 (F := Ideal) x0) (k0_pay7 (F := Ideal) x0)) x = colG x0 x1 (r0_4.emb x) := by
  obtain ⟨u0, u1, j, rfl⟩ : ∃ (u0 u1 : Fin 1) (j : Fin 256), x = ix3 u0 u1 j := ⟨x 0, x 1, x 2, eq_ix3 x⟩
  exact k0_col3 x0 x1 u0 u1 j

theorem k0_piece4 (x0 x1 : Vec Ideal S1x2048x3 .f32) (x : r0_5.shape.Idx) :
    k0_pay29 (F := Ideal) (k0_pay3 (F := Ideal) x1) (k0_pay4 (F := Ideal) x0) (k0_pay5 (F := Ideal) x0) (k0_pay6 (F := Ideal) x0) (k0_pay7 (F := Ideal) x0) x = colG x0 x1 (r0_5.emb x) := by
  obtain ⟨u0, u1, j, rfl⟩ : ∃ (u0 u1 : Fin 1) (j : Fin 256), x = ix3 u0 u1 j := ⟨x 0, x 1, x 2, eq_ix3 x⟩
  exact k0_col4 x0 x1 u0 u1 j

theorem k0_piece5 (x0 x1 : Vec Ideal S1x2048x3 .f32) (x : r0_6.shape.Idx) :
    k0_pay38 (F := Ideal) (k0_pay6 (F := Ideal) x0) (k0_pay7 (F := Ideal) x0) (k0_pay32 (F := Ideal) (k0_pay3 (F := Ideal) x1)) (k0_pay33 (F := Ideal) (k0_pay3 (F := Ideal) x1)) (k0_pay34 (F := Ideal) (k0_pay3 (F := Ideal) x1) (k0_pay4 (F := Ideal) x0)) (k0_pay35 (F := Ideal) (k0_pay5 (F := Ideal) x0)) (k0_pay36 (F := Ideal) (k0_pay3 (F := Ideal) x1)) x = colG x0 x1 (r0_6.emb x) := by
  obtain ⟨u0, u1, j, rfl⟩ : ∃ (u0 u1 : Fin 1) (j : Fin 256), x = ix3 u0 u1 j := ⟨x 0, x 1, x 2, eq_ix3 x⟩
  exact k0_col5 x0 x1 u0 u1 j

theorem k0_piece6 (x0 x1 : Vec Ideal S1x2048x3 .f32) (x : r0_7.shape.Idx) :
    k0_pay42 (F := Ideal) (k0_pay41 (F := Ideal) (k0_pay3 (F := Ideal) x1) (k0_pay4 (F := Ideal) x0) (k0_pay5 (F := Ideal) x0) (k0_pay6 (F := Ideal) x0) (k0_pay7 (F := Ideal) x0)) x = colG x0 x1 (r0_7.emb x) := by
  obtain ⟨u0, u1, j, rfl⟩ : ∃ (u0 u1 : Fin 1) (j : Fin 256), x = ix3 u0 u1 j := ⟨x 0, x 1, x 2, eq_ix3 x⟩
  exact k0_col6 x0 x1 u0 u1 j

theorem k0_piece7 (x0 x1 : Vec Ideal S1x2048x3 .f32) (x : r0_8.shape.Idx) :
    k0_pay44 (F := Ideal) (k0_pay3 (F := Ideal) x1) (k0_pay4 (F := Ideal) x0) (k0_pay5 (F := Ideal) x0) (k0_pay6 (F := Ideal) x0) (k0_pay7 (F := Ideal) x0) x = colG x0 x1 (r0_8.emb x) := by
  obtain ⟨u0, u1, j, rfl⟩ : ∃ (u0 u1 : Fin 1) (j : Fin 256), x = ix3 u0 u1 j := ⟨x 0, x 1, x 2, eq_ix3 x⟩
  exact k0_col7 x0 x1 u0 u1 j

/-- Entry jj of the second output block: the least squared distance from point jj of the second block to the 2048 points
    of the first; the eight stores tile the block, each holding its chunk's column minima. -/
theorem out0_3_apply (x0 x1 : Vec Ideal S1x2048x3 .f32) (jj : Fin 2048) :
    out0_3 (F := Ideal) x0 x1 (ix3 0 0 jj) = (Finset.univ : Finset (Fin 2048)).fold min ⊤ (fun i => bsqd x0 x1 i jj) := by
  unfold out0_3
  simp only [View.ld_unit_zero (S := S1x2048x3) hz3]
  refine (View.canon_apply_of_pieces (colG x0 x1) _ ?_ (ix3 0 0 jj) (cover0_3 _ _ _ _ _ _ _ _ _)).trans rfl
  refine List.forall_mem_cons.2 ⟨?_, List.forall_mem_cons.2 ⟨?_, List.forall_mem_cons.2 ⟨?_, List.forall_mem_cons.2 ⟨?_,
    List.forall_mem_cons.2 ⟨?_, List.forall_mem_cons.2 ⟨?_, List.forall_mem_cons.2 ⟨?_, List.forall_mem_cons.2 ⟨?_,
    fun _ h => absurd h List.not_mem_nil⟩⟩⟩⟩⟩⟩⟩⟩
  · dsimp only; exact k0_piece7 x0 x1
  · dsimp only; exact k0_piece6 x0 x1
  · dsimp only; exact k0_piece5 x0 x1
  · dsimp only; exact k0_piece4 x0 x1
  · dsimp only; exact k0_piece3 x0 x1
  · dsimp only; exact k0_piece2 x0 x1
  · dsimp only; exact k0_piece1 x0 x1
  · dsimp only; exact k0_piece0 x0 x1

end Cert.KernelIdeal.Body

end
-- ==== Proof.KernelBody1.lean ====
/-
  What the body of the second launch leaves in its two output blocks, read at an index: entry i of the first is the least
  squared distance from point i of the first input block (4096 points) to the points of the second (2048 points); entry j
  of the second is the least squared distance from point j of the second input block to the points of the first.

  The body walks the 2048 points of the second block in eight chunks of 256 lanes.  For chunk k it builds the 4096 × 256
  array whose entry (i, j) is |p_i|² + |q_jj|² − 2 (p_i · q_jj) with jj = 256 k + j, out of the three coordinate columns
  and the squared-norm column of the first block and three 256-lane pieces of the rows of the transposed second block.
  The minimum of that array down each column is final at once (the 4096 points of the first block are all there) and is
  stored at lanes 256 k … 256 k + 255 of the second output; its minimum along each row is only one eighth of the answer
  and is folded into a running column of 4096 minima that starts at +∞ and is stored, after the last chunk, as the
  first output.
-/
import proofs.«418857_j12506944766656_3_alg».proof.Proof.Spec
import proofs.«418857_j12506944766656_3_alg».proof.Proof.LibChunkMin
import proofs.«418857_j12506944766656_3_alg».proof.Proof.LibColumn
import proofs.«418857_j12506944766656_3_alg».proof.Proof.Gen.KernelIdeal.Frame
import Idealize.ShloMosaic.Lib.ValueLayout

set_option maxRecDepth 16384

noncomputable section

namespace Cert.KernelIdeal.Body

open Idealize.ShloMosaic Idealize.ShloMosaic.ValueIdx Cert.KernelIdeal Cert.KernelIdeal.Gen Cert.Chamfer
open Cert.Lib.ChunkMin Cert.Lib.Column

/-! ## The columns and rows the distance arrays are built from -/

/-- Row d of the transposed second block at lane jj is coordinate d of its point jj. -/
theorem k1_bt_apply (x1 : Vec Ideal S1x2048x3 .f32) (d : Fin 3) (jj : Fin 2048) :
    k1_pay3 (F := Ideal) x1 (ix2 d jj) = x1 (ix3 0 jj d) := by
  unfold k1_pay3
  rw [transpose_ix2_apply, shapeCast_1ab_ab_apply]

/-- The first block's three coordinate columns: row i of column d is coordinate d of its point i. -/
theorem k1_a0_apply (x0 : Vec Ideal S1x4096x3 .f32) (i : Fin 4096) :
    k1_pay4 (F := Ideal) x0 (ix2 i 0) = x0 (ix3 0 i 0) := by
  unfold k1_pay4 k1_pay2
  rw [slice2_apply 0 0 _ _ i 0 i 0 (by simp) (by simp), shapeCast_1ab_ab_apply]
theorem k1_a1_apply (x0 : Vec Ideal S1x4096x3 .f32) (i : Fin 4096) :
    k1_pay5 (F := Ideal) x0 (ix2 i 0) = x0 (ix3 0 i 1) := by
  unfold k1_pay5 k1_pay2
  rw [slice2_apply 0 1 _ _ i 0 i 1 (by simp) (by simp), shapeCast_1ab_ab_apply]
theorem k1_a2_apply (x0 : Vec Ideal S1x4096x3 .f32) (i : Fin 4096) :
    k1_pay6 (F := Ideal) x0 (ix2 i 0) = x0 (ix3 0 i 2) := by
  unfold k1_pay6 k1_pay2
  rw [slice2_apply 0 2 _ _ i 0 i 2 (by simp) (by simp), shapeCast_1ab_ab_apply]

/-- The squared-norm column of the first block: row i is |p_i|², the three squares added from the left. -/
theorem k1_an_apply (x0 : Vec Ideal S1x4096x3 .f32) (i : Fin 4096) :
    k1_pay7 (F := Ideal) x0 (ix2 i 0)
      = (x0 (ix3 0 i 0) * x0 (ix3 0 i 0) + x0 (ix3 0 i 1) * x0 (ix3 0 i 1)) + x0 (ix3 0 i 2) * x0 (ix3 0 i 2) := by
  unfold k1_pay7
  simp only [addf_apply, mulf_apply, k1_a0_apply, k1_a1_apply, k1_a2_apply]

/-! ## The distance array of one chunk -/

/-- The expanded squared distance of row i and lane jj, written over the vectors the body keeps across the chunks: the
    transposed second block v4, the first block's coordinate columns v5 v6 v7 and its squared-norm column v12. -/
def cdist1 (v4 : FVec Ideal S3x2048 .f32) (v5 v6 v7 v12 : FVec Ideal S4096x1 .f32) (i : Fin 4096) (jj : Fin 2048) : EReal :=
  (v12 (ix2 i 0) + ((v4 (ix2 0 jj) * v4 (ix2 0 jj) + v4 (ix2 1 jj) * v4 (ix2 1 jj)) + v4 (ix2 2 jj) * v4 (ix2 2 jj)))
    - two * ((v5 (ix2 i 0) * v4 (ix2 0 jj) + v6 (ix2 i 0) * v4 (ix2 1 jj)) + v7 (ix2 i 0) * v4 (ix2 2 jj))

/-- With those vectors taken from the two blocks it is the squared distance of point i of the first block (of 4096) and
    point jj of the second (of 2048), in the specification's form. -/
theorem cdist1_eq (x0 : Vec Ideal S1x4096x3 .f32) (x1 : Vec Ideal S1x2048x3 .f32) (i : Fin 4096) (jj : Fin 2048) :
    cdist1 (k1_pay3 (F := Ideal) x1) (k1_pay4 (F := Ideal) x0) (k1_pay5 (F := Ideal) x0) (k1_pay6 (F := Ideal) x0)
      (k1_pay7 (F := Ideal) x0) i jj = bsqd x0 x1 i jj := by
  unfold cdist1 bsqd sqd3
  rw [k1_an_apply, k1_a0_apply, k1_a1_apply, k1_a2_apply]
  simp only [k1_bt_apply]

/-- A 256-lane piece of row d of the transposed block, starting at lane off, read at lane j: the row at lane off + j. -/
theorem k1_bt_slice (v4 : FVec Ideal S3x2048 .f32) (d off : ℕ) (h : S3x2048.Slices ![d, off] S1x256) (j : Fin 256) :
    extractStridedSlice S1x256 ![d, off] v4 h (ix2 (0 : Fin 1) j)
      = v4 (ix2 ⟨d, Nat.lt_of_succ_le (h.2 0)⟩ ⟨off + j.val, by have e : off + 256 ≤ 2048 := h.2 1; omega⟩) :=
  extractStridedSlice_apply _ v4 h _ _ fun a => by
    match a with
    | ⟨0, _⟩ => rfl
    | ⟨1, _⟩ => rfl

/-- Every chunk's array is the same expression in columns broadcast across the lanes and row pieces broadcast down the
    rows: read entrywise, each broadcast gives its column's row i or its piece's lane j, and the piece's lane j is the
    transposed block's lane off + j. -/
local macro "k1_chunk_tac" : tactic => `(tactic| (
  simp only [subf_apply, addf_apply, mulf_apply, broadcast_apply, broadcastTo_a1_ab_apply, broadcastTo_1b_ab_apply,
    k1_bt_slice, Ideal.ofBits_def]
  rfl))

/-- Chunk 0 (lanes 0 … 255), formed directly from the two blocks. -/
theorem k1_chunk0 (x0 : Vec Ideal S1x4096x3 .f32) (x1 : Vec Ideal S1x2048x3 .f32) (i : Fin 4096) (j : Fin 256) :
    k1_pay8 (F := Ideal) x0 x1 (ix2 i j)
      = cdist1 (k1_pay3 (F := Ideal) x1) (k1_pay4 (F := Ideal) x0) (k1_pay5 (F := Ideal) x0) (k1_pay6 (F := Ideal) x0)
          (k1_pay7 (F := Ideal) x0) i ⟨0 + j.val, by omega⟩ := by
  unfold k1_pay8 cdist1
  k1_chunk_tac

/-- Chunk 1 (lanes 256 … 511). -/
theorem k1_chunk1 (v4 : FVec Ideal S3x2048 .f32) (v5 v6 v7 v12 : FVec Ideal S4096x1 .f32) (i : Fin 4096) (j : Fin 256) :
    k1_pay12 (F := Ideal) v4 v5 v6 v7 v12 (ix2 i j) = cdist1 v4 v5 v6 v7 v12 i ⟨256 + j.val, by omega⟩ := by
  unfold k1_pay12 cdist1
  k1_chunk_tac

/-- Chunk 2 (lanes 512 … 767); its pieces and partial sums are handed on between two parts of the body, so the array is
    an expression in them. -/
theorem k1_chunk2 (v4 : FVec Ideal S3x2048 .f32) (v5 v6 v7 v12 : FVec Ideal S4096x1 .f32) (i : Fin 4096) (j : Fin 256) :
    k1_pay21 (F := Ideal) v12 (k1_pay17 (F := Ideal) v4) (k1_pay18 (F := Ideal) v4) (k1_pay19 (F := Ideal) v4 v5 v6)
      (k1_pay20 (F := Ideal) v7) (ix2 i j) = cdist1 v4 v5 v6 v7 v12 i ⟨512 + j.val, by omega⟩ := by
  unfold k1_pay21 k1_pay20 k1_pay19 k1_pay18 k1_pay17 k1_pay16 k1_pay15 cdist1
  k1_chunk_tac

/-- Chunk 3 (lanes 768 … 1023). -/
theorem k1_chunk3 (v4 : FVec Ideal S3x2048 .f32) (v5 v6 v7 v12 : FVec Ideal S4096x1 .f32) (i : Fin 4096) (j : Fin 256) :
    k1_pay23 (F := Ideal) v4 v5 v6 v7 v12 (ix2 i j) = cdist1 v4 v5 v6 v7 v12 i ⟨768 + j.val, by omega⟩ := by
  unfold k1_pay23 cdist1
  k1_chunk_tac

/-- Chunk 4 (lanes 1024 … 1279). -/
theorem k1_chunk4 (v4 : FVec Ideal S3x2048 .f32) (v5 v6 v7 v12 : FVec Ideal S4096x1 .f32) (i : Fin 4096) (j : Fin 256) :
    k1_pay27 (F := Ideal) v4 v5 v6 v7 v12 (ix2 i j) = cdist1 v4 v5 v6 v7 v12 i ⟨1024 + j.val, by omega⟩ := by
  unfold k1_pay27 cdist1
  k1_chunk_tac

/-- Chunk 5 (lanes 1280 … 1535), again an expression in pieces and partial products handed on between two parts. -/
theorem k1_chunk5 (v4 : FVec Ideal S3x2048 .f32) (v5 v6 v7 v12 : FVec Ideal S4096x1 .f32) (i : Fin 4096) (j : Fin 256) :
    k1_pay37 (F := Ideal) v7 v12 (k1_pay32 (F := Ideal) v4) (k1_pay33 (F := Ideal) v4) (k1_pay34 (F := Ideal) v4 v5)
      (k1_pay35 (F := Ideal) v6) (k1_pay36 (F := Ideal) v4) (ix2 i j) = cdist1 v4 v5 v6 v7 v12 i ⟨1280 + j.val, by omega⟩ := by
  unfold k1_pay37 k1_pay36 k1_pay35 k1_pay34 k1_pay33 k1_pay32 k1_pay31 k1_pay30 cdist1
  k1_chunk_tac

/-- Chunk 6 (lanes 1536 … 1791). -/
theorem k1_chunk6 (v4 : FVec Ideal S3x2048 .f32) (v5 v6 v7 v12 : FVec Ideal S4096x1 .f32) (i : Fin 4096) (j : Fin 256) :
    k1_pay39 (F := Ideal) v4 v5 v6 v7 v12 (ix2 i j) = cdist1 v4 v5 v6 v7 v12 i ⟨1536 + j.val, by omega⟩ := by
  unfold k1_pay39 cdist1
  k1_chunk_tac

/-- Chunk 7 (lanes 1792 … 2047). -/
theorem k1_chunk7 (v4 : FVec Ideal S3x2048 .f32) (v5 v6 v7 v12 : FVec Ideal S4096x1 .f32) (i : Fin 4096) (j : Fin 256) :
    k1_pay43 (F := Ideal) v4 v5 v6 v7 v12 (ix2 i j) = cdist1 v4 v5 v6 v7 v12 i ⟨1792 + j.val, by omega⟩ := by
  unfold k1_pay43 cdist1
  k1_chunk_tac

/-! ## The running minimum along the rows -/

/-- The minimum along the rows of one chunk's 4096 × 256 array, reshaped to a column, at row i: the least of the 256
    entries of row i. -/
theorem k1_rowmin_apply (src : FVec Ideal S4096x256 .f32) (i : Fin 4096) :
    shapeCast S4096x1 (multiReduction .minimumf [1] S4096 src 0x7F800000#32 reduces_S4096x256_S4096 (.inl rfl) rfl)
        shapeCasts_S4096_S4096x1 (ix2 i 0)
      = (Finset.univ : Finset (Fin 256)).fold min ⊤ (fun j => src (ix2 i j)) :=
  (shapeCast_a_a1_apply _ _ i 0).trans (minReduce_axis1_apply src _ _ _ i)

/-- After chunk 0 the running column holds, at row i, the lesser of +∞ and row i's minimum over chunk 0. -/
theorem k1_row0 (x0 : Vec Ideal S1x4096x3 .f32) (x1 : Vec Ideal S1x2048x3 .f32) (i : Fin 4096) :
    k1_pay9 (F := Ideal) x0 x1 (ix2 i 0)
      = min ⊤ ((Finset.univ : Finset (Fin 256)).fold min ⊤ (fun j => k1_pay8 (F := Ideal) x0 x1 (ix2 i j))) := by
  unfold k1_pay9
  refine (minimumf_apply _ _ _).trans ?_
  rw [k1_rowmin_apply, broadcast_apply]
  exact congrArg (fun t => min t _) ofBits_posInf_f32

/-- Chunk 1 folded into the running column v41. -/
theorem k1_row1 (v4 : FVec Ideal S3x2048 .f32) (v5 v6 v7 v12 v41 : FVec Ideal S4096x1 .f32) (i : Fin 4096) :
    k1_pay13 (F := Ideal) v4 v5 v6 v7 v12 v41 (ix2 i 0)
      = min (v41 (ix2 i 0)) ((Finset.univ : Finset (Fin 256)).fold min ⊤ (fun j => k1_pay12 (F := Ideal) v4 v5 v6 v7 v12 (ix2 i j))) := by
  unfold k1_pay13
  simp only [minimumf_apply]
  rw [k1_rowmin_apply]

/-- Chunks 2 and 3 folded, one after the other, into the running column v75. -/
theorem k1_row23 (v4 : FVec Ideal S3x2048 .f32) (v5 v6 v7 v12 v75 : FVec Ideal S4096x1 .f32) (v84 v89 : FVec Ideal S1x256 .f32)
    (v96 v97 : FVec Ideal S4096x256 .f32) (i : Fin 4096) :
    k1_pay24 (F := Ideal) v4 v5 v6 v7 v12 v75 v84 v89 v96 v97 (ix2 i 0)
      = min (min (v75 (ix2 i 0))
          ((Finset.univ : Finset (Fin 256)).fold min ⊤ (fun j => k1_pay21 (F := Ideal) v12 v84 v89 v96 v97 (ix2 i j))))
          ((Finset.univ : Finset (Fin 256)).fold min ⊤ (fun j => k1_pay23 (F := Ideal) v4 v5 v6 v7 v12 (ix2 i j))) := by
  unfold k1_pay24
  simp only [minimumf_apply]
  rw [k1_rowmin_apply, k1_rowmin_apply]

/-- Chunk 4 folded into the running column v143. -/
theorem k1_row4 (v4 : FVec Ideal S3x2048 .f32) (v5 v6 v7 v12 v143 : FVec Ideal S4096x1 .f32) (i : Fin 4096) :
    k1_pay28 (F := Ideal) v4 v5 v6 v7 v12 v143 (ix2 i 0)
      = min (v143 (ix2 i 0)) ((Finset.univ : Finset (Fin 256)).fold min ⊤ (fun j => k1_pay27 (F := Ideal) v4 v5 v6 v7 v12 (ix2 i j))) := by
  unfold k1_pay28
  simp only [minimumf_apply]
  rw [k1_rowmin_apply]

/-- Chunks 5 and 6 folded, one after the other, into the running column v177. -/
theorem k1_row56 (v4 : FVec Ideal S3x2048 .f32) (v5 v6 v7 v12 v177 : FVec Ideal S4096x1 .f32) (v186 v191 : FVec Ideal S1x256 .f32)
    (v194 v195 v196 : FVec Ideal S4096x256 .f32) (i : Fin 4096) :
    k1_pay40 (F := Ideal) v4 v5 v6 v7 v12 v177 v186 v191 v194 v195 v196 (ix2 i 0)
      = min (min (v177 (ix2 i 0))
          ((Finset.univ : Finset (Fin 256)).fold min ⊤ (fun j => k1_pay37 (F := Ideal) v7 v12 v186 v191 v194 v195 v196 (ix2 i j))))
          ((Finset.univ : Finset (Fin 256)).fold min ⊤ (fun j => k1_pay39 (F := Ideal) v4 v5 v6 v7 v12 (ix2 i j))) := by
  unfold k1_pay40
  simp only [minimumf_apply]
  rw [k1_rowmin_apply, k1_rowmin_apply]

/-- Chunk 7 folded into the running column v245, the column then laid out as a row of 4096 lanes. -/
theorem k1_row7 (v4 : FVec Ideal S3x2048 .f32) (v5 v6 v7 v12 v245 : FVec Ideal S4096x1 .f32) (i : Fin 4096) :
    k1_pay45 (F := Ideal) v4 v5 v6 v7 v12 v245 (ix1 i)
      = min (v245 (ix2 i 0)) ((Finset.univ : Finset (Fin 256)).fold min ⊤ (fun j => k1_pay43 (F := Ideal) v4 v5 v6 v7 v12 (ix2 i j))) := by
  unfold k1_pay45
  rw [shapeCast_a1_a_apply]
  simp only [minimumf_apply]
  rw [k1_rowmin_apply]

/-- Three zero offsets, as the function that is zero on every axis. -/
theorem k1_hz3 : (![0, 0, 0] : Fin 3 → ℕ) = fun _ => 0 := funext fun a => by fin_cases a <;> rfl

/-- Entry i of the first output block: the least squared distance from point i of the first block to the 2048 points of
    the second.  The block is one whole store of the running column after chunk 7; unwinding the eight folds gives the
    running minimum, from +∞, of row i's minima over the eight chunks, which is row i's minimum over all 2048 lanes. -/
theorem out1_2_apply (x0 : Vec Ideal S1x4096x3 .f32) (x1 : Vec Ideal S1x2048x3 .f32) (i : Fin 4096) :
    out1_2 (F := Ideal) x0 x1 (ix3 0 0 i) = (Finset.univ : Finset (Fin 2048)).fold min ⊤ (fun j => bsqd x0 x1 i j) := by
  unfold out1_2
  rw [View.canon_unit_zero k1_hz3]
  simp only [View.ld_unit_zero (S := S1x4096x3) k1_hz3, View.ld_unit_zero (S := S1x2048x3) k1_hz3]
  unfold k1_pay1
  rw [shapeCast_a_11a_apply, k1_row7, k1_row56, k1_row4, k1_row23, k1_row1, k1_row0]
  refine Eq.trans ?_ (fold_min_chunks (fun jj => bsqd x0 x1 i jj)
    (fun k j => bsqd x0 x1 i ⟨256 * k.val + j.val, by have := k.isLt; have := j.isLt; omega⟩) (fun _ _ => rfl))
  simp only [k1_chunk0, k1_chunk1, k1_chunk2, k1_chunk3, k1_chunk4, k1_chunk5, k1_chunk6, k1_chunk7, cdist1_eq]
  rfl

/-! ## The minima down the columns, one chunk at a time -/

/-- The minimum down the columns of one chunk's 4096 × 256 array, carried through the reshapes it is stored under
    (256 lanes, as one row, as 256 lanes again, as a [1, 1, 256] block), at lane j: the least of the 4096 entries of
    column j. -/
theorem k1_colmin_apply (src : FVec Ideal S4096x256 .f32) (u0 u1 : Fin 1) (j : Fin 256) :
    shapeCast S1x1x256 (shapeCast S256 (shapeCast S1x256
        (multiReduction .minimumf [0] S256 src 0x7F800000#32 reduces_S4096x256_S256 (.inl rfl) rfl)
        shapeCasts_S256_S1x256) shapeCasts_S1x256_S256) shapeCasts_S256_S1x1x256 (ix3 u0 u1 j)
      = (Finset.univ : Finset (Fin 4096)).fold min ⊤ (fun i => src (ix2 i j)) :=
  (shapeCast_a_11a_apply _ _ u0 u1 j).trans ((shapeCast_1a_a_apply _ _ j).trans
    ((shapeCast_a_1a_apply _ _ 0 j).trans (minReduce_axis0_apply src _ _ _ j)))

/-- The function of the block index that every one of the eight stores writes its share of: at lane jj, the least
    squared distance from point jj of the second block to the 4096 points of the first. -/
def k1_colG (x0 : Vec Ideal S1x4096x3 .f32) (x1 : Vec Ideal S1x2048x3 .f32) : S1x1x2048.Idx → EReal :=
  fun y => (Finset.univ : Finset (Fin 4096)).fold min ⊤ (fun i => bsqd x0 x1 i ⟨(y 2).val, (y 2).isLt⟩)

/-- Chunk 0's store: lane j of its payload is that function at lane 0 + j of the block. -/
theorem k1_col0 (x0 : Vec Ideal S1x4096x3 .f32) (x1 : Vec Ideal S1x2048x3 .f32) (u0 u1 : Fin 1) (j : Fin 256) :
    k1_pay11 (F := Ideal) (k1_pay10 (F := Ideal) x0 x1) (ix3 u0 u1 j)
      = k1_colG x0 x1 (r1_2.emb (ix3 u0 u1 j)) := by
  unfold k1_pay11 k1_pay10
  refine (k1_colmin_apply _ u0 u1 j).trans (congrArg (fun f => Finset.fold min ⊤ f Finset.univ) (funext fun i => ?_))
  refine (k1_chunk0 x0 x1 i j).trans ((cdist1_eq x0 x1 i _).trans (congrArg (bsqd x0 x1 i) (Fin.ext ?_)))
  show 0 + j.val = 0 + 1 * j.val
  omega

/-- Chunk 1's store, at lanes 256 + j. -/
theorem k1_col1 (x0 : Vec Ideal S1x4096x3 .f32) (x1 : Vec Ideal S1x2048x3 .f32) (u0 u1 : Fin 1) (j : Fin 256) :
    k1_pay14 (F := Ideal) (k1_pay3 (F := Ideal) x1) (k1_pay4 (F := Ideal) x0) (k1_pay5 (F := Ideal) x0) (k1_pay6 (F := Ideal) x0) (k1_pay7 (F := Ideal) x0) (ix3 u0 u1 j)
      = k1_colG x0 x1 (r1_3.emb (ix3 u0 u1 j)) := by
  unfold k1_pay14
  refine (k1_colmin_apply _ u0 u1 j).trans (congrArg (fun f => Finset.fold min ⊤ f Finset.univ) (funext fun i => ?_))
  refine (k1_chunk1 (k1_pay3 (F := Ideal) x1) (k1_pay4 (F := Ideal) x0) (k1_pay5 (F := Ideal) x0) (k1_pay6 (F := Ideal) x0) (k1_pay7 (F := Ideal) x0) i j).trans ((cdist1_eq x0 x1 i _).trans (congrArg (bsqd x0 x1 i) (Fin.ext ?_)))
  show 256 + j.val = 256 + 1 * j.val
  omega

/-- Chunk 2's store, at lanes 512 + j. -/
theorem k1_col2 (x0 : Vec Ideal S1x4096x3 .f32) (x1 : Vec Ideal S1x2048x3 .f32) (u0 u1 : Fin 1) (j : Fin 256) :
    k1_pay22 (F := Ideal) (k1_pay7 (F := Ideal) x0) (k1_pay17 (F := Ideal) (k1_pay3 (F := Ideal) x1)) (k1_pay18 (F := Ideal) (k1_pay3 (F := Ideal) x1)) (k1_pay19 (F := Ideal) (k1_pay3 (F := Ideal) x1) (k1_pay4 (F := Ideal) x0) (k1_pay5 (F := Ideal) x0)) (k1_pay20 (F := Ideal) (k1_pay6 (F := Ideal) x0)) (ix3 u0 u1 j)
      = k1_colG x0 x1 (r1_4.emb (ix3 u0 u1 j)) := by
  unfold k1_pay22
  refine (k1_colmin_apply _ u0 u1 j).trans (congrArg (fun f => Finset.fold min ⊤ f Finset.univ) (funext fun i => ?_))
  refine (k1_chunk2 (k1_pay3 (F := Ideal) x1) (k1_pay4 (F := Ideal) x0) (k1_pay5 (F := Ideal) x0) (k1_pay6 (F := Ideal) x0) (k1_pay7 (F := Ideal) x0) i j).trans ((cdist1_eq x0 x1 i _).trans (congrArg (bsqd x0 x1 i) (Fin.ext ?_)))
  show 512 + j.val = 512 + 1 * j.val
  omega

/-- Chunk 3's store, at lanes 768 + j. -/
theorem k1_col3 (x0 : Vec Ideal S1x4096x3 .f32) (x1 : Vec Ideal S1x2048x3 .f32) (u0 u1 : Fin 1) (j : Fin 256) :
    k1_pay26 (F := Ideal) (k1_pay25 (F := Ideal) (k1_pay3 (F := Ideal) x1) (k1_pay4 (F := Ideal) x0) (k1_pay5 (F := Ideal) x0) (k1_pay6 (F := Ideal) x0) (k1_pay7 (F := Ideal) x0)) (ix3 u0 u1 j)
      = k1_colG x0 x1 (r1_5.emb (ix3 u0 u1 j)) := by
  unfold k1_pay26 k1_pay25
  refine (k1_colmin_apply _ u0 u1 j).trans (congrArg (fun f => Finset.fold min ⊤ f Finset.univ) (funext fun i => ?_))
  refine (k1_chunk3 (k1_pay3 (F := Ideal) x1) (k1_pay4 (F := Ideal) x0) (k1_pay5 (F := Ideal) x0) (k1_pay6 (F := Ideal) x0) (k1_pay7 (F := Ideal) x0) i j).trans ((cdist1_eq x0 x1 i _).trans (congrArg (bsqd x0 x1 i) (Fin.ext ?_)))
  show 768 + j.val = 768 + 1 * j.val
  omega

/-- Chunk 4's store, at lanes 1024 + j. -/
theorem k1_col4 (x0 : Vec Ideal S1x4096x3 .f32) (x1 : Vec Ideal S1x2048x3 .f32) (u0 u1 : Fin 1) (j : Fin 256) :
    k1_pay29 (F := Ideal) (k1_pay3 (F := Ideal) x1) (k1_pay4 (F := Ideal) x0) (k1_pay5 (F := Ideal) x0) (k1_pay6 (F := Ideal) x0) (k1_pay7 (F := Ideal) x0) (ix3 u0 u1 j)
      = k1_colG x0 x1 (r1_6.emb (ix3 u0 u1 j)) := by
  unfold k1_pay29
  refine (k1_colmin_apply _ u0 u1 j).trans (congrArg (fun f => Finset.fold min ⊤ f Finset.univ) (funext fun i => ?_))
  refine (k1_chunk4 (k1_pay3 (F := Ideal) x1) (k1_pay4 (F := Ideal) x0) (k1_pay5 (F := Ideal) x0) (k1_pay6 (F := Ideal) x0) (k1_pay7 (F := Ideal) x0) i j).trans ((cdist1_eq x0 x1 i _).trans (congrArg (bsqd x0 x1 i) (Fin.ext ?_)))
  show 1024 + j.val = 1024 + 1 * j.val
  omega

/-- Chunk 5's store, at lanes 1280 + j. -/
theorem k1_col5 (x0 : Vec Ideal S1x4096x3 .f32) (x1 : Vec Ideal S1x2048x3 .f32) (u0 u1 : Fin 1) (j : Fin 256) :
    k1_pay38 (F := Ideal) (k1_pay6 (F := Ideal) x0) (k1_pay7 (F := Ideal) x0) (k1_pay32 (F := Ideal) (k1_pay3 (F := Ideal) x1)) (k1_pay33 (F := Ideal) (k1_pay3 (F := Ideal) x1)) (k1_pay34 (F := Ideal) (k1_pay3 (F := Ideal) x1) (k1_pay4 (F := Ideal) x0)) (k1_pay35 (F := Ideal) (k1_pay5 (F := Ideal) x0)) (k1_pay36 (F := Ideal) (k1_pay3 (F := Ideal) x1)) (ix3 u0 u1 j)
      = k1_colG x0 x1 (r1_7.emb (ix3 u0 u1 j)) := by
  unfold k1_pay38
  refine (k1_colmin_apply _ u0 u1 j).trans (congrArg (fun f => Finset.fold min ⊤ f Finset.univ) (funext fun i => ?_))
  refine (k1_chunk5 (k1_pay3 (F := Ideal) x1) (k1_pay4 (F := Ideal) x0) (k1_pay5 (F := Ideal) x0) (k1_pay6 (F := Ideal) x0) (k1_pay7 (F := Ideal) x0) i j).trans ((cdist1_eq x0 x1 i _).trans (congrArg (bsqd x0 x1 i) (Fin.ext ?_)))
  show 1280 + j.val = 1280 + 1 * j.val
  omega

/-- Chunk 6's store, at lanes 1536 + j. -/
theorem k1_col6 (x0 : Vec Ideal S1x4096x3 .f32) (x1 : Vec Ideal S1x2048x3 .f32) (u0 u1 : Fin 1) (j : Fin 256) :
    k1_pay42 (F := Ideal) (k1_pay41 (F := Ideal) (k1_pay3 (F := Ideal) x1) (k1_pay4 (F := Ideal) x0) (k1_pay5 (F := Ideal) x0) (k1_pay6 (F := Ideal) x0) (k1_pay7 (F := Ideal) x0)) (ix3 u0 u1 j)
      = k1_colG x0 x1 (r1_8.emb (ix3 u0 u1 j)) := by
  unfold k1_pay42 k1_pay41
  refine (k1_colmin_apply _ u0 u1 j).trans (congrArg (fun f => Finset.fold min ⊤ f Finset.univ) (funext fun i => ?_))
  refine (k1_chunk6 (k1_pay3 (F := Ideal) x1) (k1_pay4 (F := Ideal) x0) (k1_pay5 (F := Ideal) x0) (k1_pay6 (F := Ideal) x0) (k1_pay7 (F := Ideal) x0) i j).trans ((cdist1_eq x0 x1 i _).trans (congrArg (bsqd x0 x1 i) (Fin.ext ?_)))
  show 1536 + j.val = 1536 + 1 * j.val
  omega

/-- Chunk 7's store, at lanes 1792 + j. -/
theorem k1_col7 (x0 : Vec Ideal S1x4096x3 .f32) (x1 : Vec Ideal S1x2048x3 .f32) (u0 u1 : Fin 1) (j : Fin 256) :
    k1_pay44 (F := Ideal) (k1_pay3 (F := Ideal) x1) (k1_pay4 (F := Ideal) x0) (k1_pay5 (F := Ideal) x0) (k1_pay6 (F := Ideal) x0) (k1_pay7 (F := Ideal) x0) (ix3 u0 u1 j)
      = k1_colG x0 x1 (r1_9.emb (ix3 u0 u1 j)) := by
  unfold k1_pay44
  refine (k1_colmin_apply _ u0 u1 j).trans (congrArg (fun f => Finset.fold min ⊤ f Finset.univ) (funext fun i => ?_))
  refine (k1_chunk7 (k1_pay3 (F := Ideal) x1) (k1_pay4 (F := Ideal) x0) (k1_pay5 (F := Ideal) x0) (k1_pay6 (F := Ideal) x0) (k1_pay7 (F := Ideal) x0) i j).trans ((cdist1_eq x0 x1 i _).trans (congrArg (bsqd x0 x1 i) (Fin.ext ?_)))
  show 1792 + j.val = 1792 + 1 * j.val
  omega

/-! ## The eight stores as pieces of one function of the block index -/

/-- Store 0's payload at any index of its rectangle: the index is its three coordinates. -/
theorem k1_piece0 (x0 : Vec Ideal S1x4096x3 .f32) (x1 : Vec Ideal S1x2048x3 .f32) (x : r1_2.shape.Idx) :
    k1_pay11 (F := Ideal) (k1_pay10 (F := Ideal) x0 x1) x = k1_colG x0 x1 (r1_2.emb x) := by
  obtain ⟨u0, u1, j, rfl⟩ : ∃ (u0 u1 : Fin 1) (j : Fin 256), x = ix3 u0 u1 j := ⟨x 0, x 1, x 2, eq_ix3 x⟩
  exact k1_col0 x0 x1 u0 u1 j

/-- Store 1's payload at any index of its rectangle: the index is its three coordinates. -/
theorem k1_piece1 (x0 : Vec Ideal S1x4096x3 .f32) (x1 : Vec Ideal S1x2048x3 .f32) (x : r1_3.shape.Idx) :
    k1_pay14 (F := Ideal) (k1_pay3 (F := Ideal) x1) (k1_pay4 (F := Ideal) x0) (k1_pay5 (F := Ideal) x0) (k1_pay6 (F := Ideal) x0) (k1_pay7 (F := Ideal) x0) x = k1_colG x0 x1 (r1_3.emb x) := by
  obtain ⟨u0, u1, j, rfl⟩ : ∃ (u0 u1 : Fin 1) (j : Fin 256), x = ix3 u0 u1 j := ⟨x 0, x 1, x 2, eq_ix3 x⟩
  exact k1_col1 x0 x1 u0 u1 j

/-- Store 2's payload at any index of its rectangle: the index is its three coordinates. -/
theorem k1_piece2 (x0 : Vec Ideal S1x4096x3 .f32) (x1 : Vec Ideal S1x2048x3 .f32) (x : r1_4.shape.Idx) :
    k1_pay22 (F := Ideal) (k1_pay7 (F := Ideal) x0) (k1_pay17 (F := Ideal) (k1_pay3 (F := Ideal) x1)) (k1_pay18 (F := Ideal) (k1_pay3 (F := Ideal) x1)) (k1_pay19 (F := Ideal) (k1_pay3 (F := Ideal) x1) (k1_pay4 (F := Ideal) x0) (k1_pay5 (F := Ideal) x0)) (k1_pay20 (F := Ideal) (k1_pay6 (F := Ideal) x0)) x = k1_colG x0 x1 (r1_4.emb x) := by
  obtain ⟨u0, u1, j, rfl⟩ : ∃ (u0 u1 : Fin 1) (j : Fin 256), x = ix3 u0 u1 j := ⟨x 0, x 1, x 2, eq_ix3 x⟩
  exact k1_col2 x0 x1 u0 u1 j

/-- Store 3's payload at any index of its rectangle: the index is its three coordinates. -/
theorem k1_piece3 (x0 : Vec Ideal S1x4096x3 .f32) (x1 : Vec Ideal S1x2048x3 .f32) (x : r1_5.shape.Idx) :
    k1_pay26 (F := Ideal) (k1_pay25 (F := Ideal) (k1_pay3 (F := Ideal) x1) (k1_pay4 (F := Ideal) x0) (k1_pay5 (F := Ideal) x0) (k1_pay6 (F := Ideal) x0) (k1_pay7 (F := Ideal) x0)) x = k1_colG x0 x1 (r1_5.emb x) := by
  obtain ⟨u0, u1, j, rfl⟩ : ∃ (u0 u1 : Fin 1) (j : Fin 256), x = ix3 u0 u1 j := ⟨x 0, x 1, x 2, eq_ix3 x⟩
  exact k1_col3 x0 x1 u0 u1 j

/-- Store 4's payload at any index of its rectangle: the index is its three coordinates. -/
theorem k1_piece4 (x0 : Vec Ideal S1x4096x3 .f32) (x1 : Vec Ideal S1x2048x3 .f32) (x : r1_6.shape.Idx) :
    k1_pay29 (F := Ideal) (k1_pay3 (F := Ideal) x1) (k1_pay4 (F := Ideal) x0) (k1_pay5 (F := Ideal) x0) (k1_pay6 (F := Ideal) x0) (k1_pay7 (F := Ideal) x0) x = k1_colG x0 x1 (r1_6.emb x) := by
  obtain ⟨u0, u1, j, rfl⟩ : ∃ (u0 u1 : Fin 1) (j : Fin 256), x = ix3 u0 u1 j := ⟨x 0, x 1, x 2, eq_ix3 x⟩
  exact k1_col4 x0 x1 u0 u1 j

/-- Store 5's payload at any index of its rectangle: the index is its three coordinates. -/
theorem k1_piece5 (x0 : Vec Ideal S1x4096x3 .f32) (x1 : Vec Ideal S1x2048x3 .f32) (x : r1_7.shape.Idx) :
    k1_pay38 (F := Ideal) (k1_pay6 (F := Ideal) x0) (k1_pay7 (F := Ideal) x0) (k1_pay32 (F := Ideal) (k1_pay3 (F := Ideal) x1)) (k1_pay33 (F := Ideal) (k1_pay3 (F := Ideal) x1)) (k1_pay34 (F := Ideal) (k1_pay3 (F := Ideal) x1) (k1_pay4 (F := Ideal) x0)) (k1_pay35 (F := Ideal) (k1_pay5 (F := Ideal) x0)) (k1_pay36 (F := Ideal) (k1_pay3 (F := Ideal) x1)) x = k1_colG x0 x1 (r1_7.emb x) := by
  obtain ⟨u0, u1, j, rfl⟩ : ∃ (u0 u1 : Fin 1) (j : Fin 256), x = ix3 u0 u1 j := ⟨x 0, x 1, x 2, eq_ix3 x⟩
  exact k1_col5 x0 x1 u0 u1 j

/-- Store 6's payload at any index of its rectangle: the index is its three coordinates. -/
theorem k1_piece6 (x0 : Vec Ideal S1x4096x3 .f32) (x1 : Vec Ideal S1x2048x3 .f32) (x : r1_8.shape.Idx) :
    k1_pay42 (F := Ideal) (k1_pay41 (F := Ideal) (k1_pay3 (F := Ideal) x1) (k1_pay4 (F := Ideal) x0) (k1_pay5 (F := Ideal) x0) (k1_pay6 (F := Ideal) x0) (k1_pay7 (F := Ideal) x0)) x = k1_colG x0 x1 (r1_8.emb x) := by
  obtain ⟨u0, u1, j, rfl⟩ : ∃ (u0 u1 : Fin 1) (j : Fin 256), x = ix3 u0 u1 j := ⟨x 0, x 1, x 2, eq_ix3 x⟩
  exact k1_col6 x0 x1 u0 u1 j

/-- Store 7's payload at any index of its rectangle: the index is its three coordinates. -/
theorem k1_piece7 (x0 : Vec Ideal S1x4096x3 .f32) (x1 : Vec Ideal S1x2048x3 .f32) (x : r1_9.shape.Idx) :
    k1_pay44 (F := Ideal) (k1_pay3 (F := Ideal) x1) (k1_pay4 (F := Ideal) x0) (k1_pay5 (F := Ideal) x0) (k1_pay6 (F := Ideal) x0) (k1_pay7 (F := Ideal) x0) x = k1_colG x0 x1 (r1_9.emb x) := by
  obtain ⟨u0, u1, j, rfl⟩ : ∃ (u0 u1 : Fin 1) (j : Fin 256), x = ix3 u0 u1 j := ⟨x 0, x 1, x 2, eq_ix3 x⟩
  exact k1_col7 x0 x1 u0 u1 j

/-- Eight pieces over the eight rectangles, last store first, each agreeing on its rectangle with one function G of the
    block index: then every piece of the list does. -/
theorem k1_pieces_agree (G : S1x1x2048.Idx → EReal) (p7 p6 p5 p4 p3 p2 p1 p0 : Vec Ideal S1x1x256 .f32)
    (h7 : ∀ x : r1_9.shape.Idx, p7 x = G (r1_9.emb x)) (h6 : ∀ x : r1_8.shape.Idx, p6 x = G (r1_8.emb x))
    (h5 : ∀ x : r1_7.shape.Idx, p5 x = G (r1_7.emb x)) (h4 : ∀ x : r1_6.shape.Idx, p4 x = G (r1_6.emb x))
    (h3 : ∀ x : r1_5.shape.Idx, p3 x = G (r1_5.emb x)) (h2 : ∀ x : r1_4.shape.Idx, p2 x = G (r1_4.emb x))
    (h1 : ∀ x : r1_3.shape.Idx, p1 x = G (r1_3.emb x)) (h0 : ∀ x : r1_2.shape.Idx, p0 x = G (r1_2.emb x)) :
    ∀ p ∈ ([⟨r1_9, p7⟩, ⟨r1_8, p6⟩, ⟨r1_7, p5⟩, ⟨r1_6, p4⟩, ⟨r1_5, p3⟩, ⟨r1_4, p2⟩, ⟨r1_3, p1⟩, ⟨r1_2, p0⟩] :
      List (View.Piece (Elt Ideal) S1x1x2048 .f32)), ∀ x : p.1.shape.Idx, p.2 x = G (p.1.emb x) := by
  intro p hp
  simp only [List.mem_cons, List.not_mem_nil, or_false] at hp
  rcases hp with rfl | rfl | rfl | rfl | rfl | rfl | rfl | rfl
  · exact h7
  · exact h6
  · exact h5
  · exact h4
  · exact h3
  · exact h2
  · exact h1
  · exact h0

/-- Entry j of the second output block: the least squared distance from point j of the second block to the 4096 points
    of the first.  The eight stores tile the block's 2048 lanes and each writes, on its 256 lanes, the column minima of
    its chunk, which are already minima over all 4096 points of the first block. -/
theorem out1_3_apply (x0 : Vec Ideal S1x4096x3 .f32) (x1 : Vec Ideal S1x2048x3 .f32) (j : Fin 2048) :
    out1_3 (F := Ideal) x0 x1 (ix3 0 0 j) = (Finset.univ : Finset (Fin 4096)).fold min ⊤ (fun i => bsqd x0 x1 i j) := by
  unfold out1_3
  simp only [View.ld_unit_zero (S := S1x4096x3) k1_hz3, View.ld_unit_zero (S := S1x2048x3) k1_hz3]
  exact (View.canon_apply_of_pieces (Val := Elt Ideal) (S := S1x1x2048) (e := .f32) (k1_colG x0 x1) _
    (k1_pieces_agree (k1_colG x0 x1) _ _ _ _ _ _ _ _ (k1_piece7 x0 x1) (k1_piece6 x0 x1) (k1_piece5 x0 x1)
      (k1_piece4 x0 x1) (k1_piece3 x0 x1) (k1_piece2 x0 x1) (k1_piece1 x0 x1) (k1_piece0 x0 x1))
    (ix3 0 0 j) (cover1_3 _ _ _ _ _ _ _ _ _)).trans rfl

end Cert.KernelIdeal.Body

end
-- ==== Proof.ArraysHand.lean ====
/-
  The four arrays the two launches write, after all eight grid points: block bb of each is what the body leaves at point
  bb, so each array holds, batch by batch, the nearest squared distances between the two clouds the launch reads.
  Here: what is shared by the four arrays (the clouds a launch finds are the clouds as launched; a block is a batch),
  and the first launch's first output.
-/
import proofs.«418857_j12506944766656_3_alg».proof.Proof.Spec
import proofs.«418857_j12506944766656_3_alg».proof.Proof.KernelBody0
import proofs.«418857_j12506944766656_3_alg».proof.Proof.KernelBody1
import proofs.«418857_j12506944766656_3_alg».proof.Proof.Gen.KernelIdeal.Frame
import Idealize.ShloMosaic.Lib.Pipeline.Value

noncomputable section

namespace Cert.KernelIdeal.Arr

open Idealize.ShloMosaic Idealize.ShloMosaic.TcCoe Idealize.ShloMosaic.ValueIdx Idealize.SL.Sem
open Cert.KernelIdeal Cert.KernelIdeal.Gen Cert.Chamfer

variable (m : (ℓ : Loc nD τ sig) → Buf (Elt Ideal) ℓ) (ρ : Dev nD → PrngReg)

/-- The three clouds as launched. -/
abbrev fpsPts (c : Dev nD) : S8x2048x3.Idx → EReal := m ((c : Thread nD τ).loc main_arg0)
abbrev strPts (c : Dev nD) : S8x2048x3.Idx → EReal := m ((c : Thread nD τ).loc main_arg1)
abbrev orgPts (c : Dev nD) : S8x4096x3.Idx → EReal := m ((c : Thread nD τ).loc main_arg3)

/-! ## The clouds a launch reads are the clouds as launched

No host operation before either launch writes an argument array, and the first launch only reads the structure cloud,
so each launch finds the clouds it reads as they were launched. -/

/-- No operation of a stretch of host operations writes the given argument array. -/
local macro "host_keeps" : tactic => `(tactic| (
  refine List.forall_iff_forall_mem.mp ?_
  simp only [hostOps0, hostOps1, List.Forall, StableHlo.nullary_writes, StableHlo.unary_writes, StableHlo.binary_writes,
    StableHlo.reshape_writes, Finset.mem_singleton]
  repeat' apply And.intro
  all_goals exact StableHlo.devRef_ne_of_ne (by decide)))

/-- The first launch finds the fps cloud as launched. -/
theorem entry0_fps (c : Dev nD) : V1 m ρ c main_arg0 = fpsPts m c :=
  calc W1 m ρ c (Proc.devRef .tc main_arg0)
    _ = W0 m ρ c (Proc.devRef .tc main_arg0) := StableHlo.after_of_forall_not_mem (b := Proc.devRef .tc main_arg0) _ _ (by host_keeps)
    _ = m ((c : Thread nD τ).loc main_arg0) := rfl

/-- The first launch finds the structure cloud as launched. -/
theorem entry0_str (c : Dev nD) : V1 m ρ c main_arg1 = strPts m c :=
  calc W1 m ρ c (Proc.devRef .tc main_arg1)
    _ = W0 m ρ c (Proc.devRef .tc main_arg1) := StableHlo.after_of_forall_not_mem (b := Proc.devRef .tc main_arg1) _ _ (by host_keeps)
    _ = m ((c : Thread nD τ).loc main_arg1) := rfl

/-- The second launch finds the origin cloud as launched: the first launch does not touch it. -/
theorem entry1_org (c : Dev nD) : V3 m ρ c main_arg3 = orgPts m c :=
  calc W3 m ρ c (Proc.devRef .tc main_arg3)
    _ = W2 m ρ c (Proc.devRef .tc main_arg3) := StableHlo.after_of_forall_not_mem (b := Proc.devRef .tc main_arg3) _ _ (by host_keeps)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (by host_keeps)
    _ = m ((c : Thread nD τ).loc main_arg3) := rfl

/-- The second launch finds the structure cloud as launched: the first launch only reads it. -/
theorem entry1_str (c : Dev nD) : V3 m ρ c main_arg1 = strPts m c :=
  calc W3 m ρ c (Proc.devRef .tc main_arg1)
    _ = W2 m ρ c (Proc.devRef .tc main_arg1) := StableHlo.after_of_forall_not_mem (b := Proc.devRef .tc main_arg1) _ _ (by host_keeps)
    _ = V1 m ρ c main_arg1 := (W2_arr m ρ c 0).trans (((dat0 (V1 m ρ) c).arrAt_in 0 rfl _).trans (A_eq0 (V1 m ρ) c 0))
    _ = m ((c : Thread nD τ).loc main_arg1) := entry0_str m ρ c

/-! ## A block is a batch

Every window's index map sends grid point bb to block (bb, 0, 0), and a block spans the two inner axes whole, so the
block at point bb is batch bb of the array, and the eight points' blocks cover it. -/

/-- A [1, 1, N] block is determined by its entries along the last axis. -/
theorem blk_ext {N : ℕ} {f g : (⟨3, ![1, 1, N]⟩ : Shape).Idx → EReal}
    (h : ∀ i : Fin N, f (ix3 0 0 i) = g (ix3 0 0 i)) : f = g := by
  funext y
  have hy : y = ix3 0 0 (y 2) := by
    funext a
    match a with
    | ⟨0, _⟩ => apply Fin.ext; have h0 : (y 0).val < 1 := (y 0).isLt; show (y 0).val = 0; omega
    | ⟨1, _⟩ => apply Fin.ext; have h1 : (y 1).val < 1 := (y 1).isLt; show (y 1).val = 0; omega
    | ⟨2, _⟩ => rfl
  rw [hy]; exact h _

/-! ### First launch -/

/-- The first launch's index maps at grid point t: block (t, 0, 0) for every window. -/
theorem idx0 : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The batch a grid point of the first launch works on. -/
abbrev bat0 (t : Fin cfg0.N) : Fin 8 := Fin.cast N_0 t

section
variable (V : (c : Dev nD) → (b : Ref sig .tc) → Buf (Elt Ideal) ((c : Thread nD τ).loc b))

/-- The first input block at point t is batch t of the structure cloud's array. -/
theorem iblk0_0_eq (c : Dev nD) (t : Fin cfg0.N) :
    (iblk0 V c 0 t : S1x2048x3.Idx → EReal) = batch (V c main_arg1 : S8x2048x3.Idx → EReal) (bat0 t) := by
  obtain ⟨⟨e0, e1, e2⟩, -⟩ := idx0 t
  funext y
  unfold iblk0
  rw [View.read_apply]
  show (V c main_arg1 : S8x2048x3.Idx → EReal) _ = (V c main_arg1 : S8x2048x3.Idx → EReal) (ix3 (bat0 t) (y 1) (y 2))
  congr 1
  funext a; apply Fin.ext
  match a with
  | ⟨0, _⟩ => show win0_0.index t (0 : Fin 3) * 1 + 1 * (y 0).val = t.val; have h0 : (y 0).val < 1 := (y 0).isLt; omega
  | ⟨1, _⟩ => show win0_0.index t (1 : Fin 3) * 2048 + 1 * (y 1).val = (y 1).val; omega
  | ⟨2, _⟩ => show win0_0.index t (2 : Fin 3) * 3 + 1 * (y 2).val = (y 2).val; omega

/-- The second input block at point t is batch t of the fps cloud's array. -/
theorem iblk0_1_eq (c : Dev nD) (t : Fin cfg0.N) :
    (iblk0 V c 1 t : S1x2048x3.Idx → EReal) = batch (V c main_arg0 : S8x2048x3.Idx → EReal) (bat0 t) := by
  obtain ⟨-, ⟨e0, e1, e2⟩, -⟩ := idx0 t
  funext y
  unfold iblk0
  rw [View.read_apply]
  show (V c main_arg0 : S8x2048x3.Idx → EReal) _ = (V c main_arg0 : S8x2048x3.Idx → EReal) (ix3 (bat0 t) (y 1) (y 2))
  congr 1
  funext a; apply Fin.ext
  match a with
  | ⟨0, _⟩ => show win0_1.index t (0 : Fin 3) * 1 + 1 * (y 0).val = t.val; have h0 : (y 0).val < 1 := (y 0).isLt; omega
  | ⟨1, _⟩ => show win0_1.index t (1 : Fin 3) * 2048 + 1 * (y 1).val = (y 1).val; omega
  | ⟨2, _⟩ => show win0_1.index t (2 : Fin 3) * 3 + 1 * (y 2).val = (y 2).val; omega

end

/-! #### First launch, first output -/

/-- Where entry i of the first output block at point t sits in its array: row t, entry i. -/
private theorem emb0_2 (t : Fin cfg0.N) (i : Fin 2048) :
    ((cfg0.win 2).blk t).view.emb (ix3 0 0 i : S1x1x2048.Idx) = (ix3 (bat0 t) 0 i : S8x1x2048.Idx) := by
  obtain ⟨-, -, ⟨e0, e1, e2⟩, -⟩ := idx0 t
  funext a; apply Fin.ext
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 2048 + 1 * i.val = i.val; omega

/-- What point t writes back through the first output window is block t of the array of nearest distances from
    the structure cloud to the fps cloud. -/
private theorem flushed0_2_eq (c : Dev nD) (t : Fin cfg0.N) :
    (dat0 (V1 m ρ) c).flushed 2 t = ((cfg0.win 2).blk t).view.read (Elt Ideal)
      (fun y : S8x1x2048.Idx => minOverQ (strPts m c) (fpsPts m c) (ix2 (y 0) (y 2))) := by
  show (cfg0.win 2).cut (grid0.coords t) ((dat0 (V1 m ρ) c).after 2 t) = _
  rw [after0_2, iblk0_0_eq, iblk0_1_eq, entry0_str, entry0_fps]
  refine blk_ext (N := 2048) (fun i => ?_)
  rw [View.read_apply, emb0_2]
  exact Body.out0_2_apply _ _ i

/-- An index of the first output array is in point t's block iff each coordinate is in the block's range. -/
private theorem mem_blk0_2 (t : Fin cfg0.N) (y : S8x1x2048.Idx) :
    y ∈ ((cfg0.win 2).blk t).view.set ↔ ∀ a : Fin 3, win0_2.index t a * S1x1x2048.size a ≤ (y a).val ∧ (y a).val < win0_2.index t a * S1x1x2048.size a + S1x1x2048.size a := by
  show y ∈ ((View.whole main_v9_0).slice (win0_2.rect t)).set ↔ _
  rw [View.set_slice_whole, Rect.mem_set_unit]
  exact Iff.rfl

/-- First launch, first output: per point of the structure cloud, the nearest squared distance to the fps cloud. -/
theorem arr0_2 (c : Dev nD) : (dat0 (V1 m ρ) c).arrAt 2 cfg0.N
    = (fun y : S8x1x2048.Idx => minOverQ (strPts m c) (fpsPts m c) (ix2 (y 0) (y 2))) :=
  (dat0 (V1 m ρ) c).arrAt_eq_of_cover 2 _ (fun t _ => flushed0_2_eq m ρ c t) fun y => by
    have h0 : (y 0).val < 8 := (y 0).isLt
    have h1 : (y 1).val < 1 := (y 1).isLt
    have h2 : (y 2).val < 2048 := (y 2).isLt
    refine ⟨⟨(y 0).val, lt_of_lt_of_eq h0 N_0.symm⟩, flush0_2 _, ?_⟩
    obtain ⟨-, -, ⟨e0, e1, e2⟩, -⟩ := idx0 ⟨(y 0).val, lt_of_lt_of_eq h0 N_0.symm⟩
    have e0' : win0_2.index ⟨(y 0).val, lt_of_lt_of_eq h0 N_0.symm⟩ (0 : Fin 3) = (y 0).val := e0
    rw [mem_blk0_2]
    intro a
    match a with
    | ⟨0, _⟩ => show win0_2.index _ (0 : Fin 3) * 1 ≤ (y 0).val ∧ (y 0).val < win0_2.index _ (0 : Fin 3) * 1 + 1; omega
    | ⟨1, _⟩ => show win0_2.index _ (1 : Fin 3) * 1 ≤ (y 1).val ∧ (y 1).val < win0_2.index _ (1 : Fin 3) * 1 + 1; omega
    | ⟨2, _⟩ => show win0_2.index _ (2 : Fin 3) * 2048 ≤ (y 2).val ∧ (y 2).val < win0_2.index _ (2 : Fin 3) * 2048 + 2048; omega

end Cert.KernelIdeal.Arr

end
-- ==== Proof.ArraysLaid.lean ====
/-
  The other three arrays the two launches write, after all eight grid points, each as the first launch's first output:
  block bb of the array is what the body leaves at point bb, which is batch bb of the nearest squared distances between the
  two clouds the launch reads, and the eight blocks cover the array.
-/
import proofs.«418857_j12506944766656_3_alg».proof.Proof.ArraysHand

noncomputable section

namespace Cert.KernelIdeal.Arr

open Idealize.ShloMosaic Idealize.ShloMosaic.TcCoe Idealize.ShloMosaic.ValueIdx Idealize.SL.Sem
open Cert.KernelIdeal Cert.KernelIdeal.Gen Cert.Chamfer

variable (m : (ℓ : Loc nD τ sig) → Buf (Elt Ideal) ℓ) (ρ : Dev nD → PrngReg)

/-! #### First launch, second output -/

/-- Where entry i of the second output block at point t sits in its array: row t, entry i. -/
private theorem emb0_3 (t : Fin cfg0.N) (i : Fin 2048) :
    ((cfg0.win 3).blk t).view.emb (ix3 0 0 i : S1x1x2048.Idx) = (ix3 (bat0 t) 0 i : S8x1x2048.Idx) := by
  obtain ⟨-, -, -, ⟨e0, e1, e2⟩⟩ := idx0 t
  funext a; apply Fin.ext
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 2048 + 1 * i.val = i.val; omega

/-- What point t writes back through the second output window is block t of the array of nearest distances from
    the fps cloud to the structure cloud. -/
private theorem flushed0_3_eq (c : Dev nD) (t : Fin cfg0.N) :
    (dat0 (V1 m ρ) c).flushed 3 t = ((cfg0.win 3).blk t).view.read (Elt Ideal)
      (fun y : S8x1x2048.Idx => minOverP (strPts m c) (fpsPts m c) (ix2 (y 0) (y 2))) := by
  show (cfg0.win 3).cut (grid0.coords t) ((dat0 (V1 m ρ) c).after 3 t) = _
  rw [after0_3, iblk0_0_eq, iblk0_1_eq, entry0_str, entry0_fps]
  refine blk_ext (N := 2048) (fun i => ?_)
  rw [View.read_apply, emb0_3]
  exact Body.out0_3_apply _ _ i

/-- An index of the second output array is in point t's block iff each coordinate is in the block's range. -/
private theorem mem_blk0_3 (t : Fin cfg0.N) (y : S8x1x2048.Idx) :
    y ∈ ((cfg0.win 3).blk t).view.set ↔ ∀ a : Fin 3, win0_3.index t a * S1x1x2048.size a ≤ (y a).val ∧ (y a).val < win0_3.index t a * S1x1x2048.size a + S1x1x2048.size a := by
  show y ∈ ((View.whole main_v9_1).slice (win0_3.rect t)).set ↔ _
  rw [View.set_slice_whole, Rect.mem_set_unit]
  exact Iff.rfl

/-- First launch, second output: per point of the fps cloud, the nearest squared distance to the structure cloud. -/
theorem arr0_3 (c : Dev nD) : (dat0 (V1 m ρ) c).arrAt 3 cfg0.N
    = (fun y : S8x1x2048.Idx => minOverP (strPts m c) (fpsPts m c) (ix2 (y 0) (y 2))) :=
  (dat0 (V1 m ρ) c).arrAt_eq_of_cover 3 _ (fun t _ => flushed0_3_eq m ρ c t) fun y => by
    have h0 : (y 0).val < 8 := (y 0).isLt
    have h1 : (y 1).val < 1 := (y 1).isLt
    have h2 : (y 2).val < 2048 := (y 2).isLt
    refine ⟨⟨(y 0).val, lt_of_lt_of_eq h0 N_0.symm⟩, flush0_3 _, ?_⟩
    obtain ⟨-, -, -, ⟨e0, e1, e2⟩⟩ := idx0 ⟨(y 0).val, lt_of_lt_of_eq h0 N_0.symm⟩
    have e0' : win0_3.index ⟨(y 0).val, lt_of_lt_of_eq h0 N_0.symm⟩ (0 : Fin 3) = (y 0).val := e0
    rw [mem_blk0_3]
    intro a
    match a with
    | ⟨0, _⟩ => show win0_3.index _ (0 : Fin 3) * 1 ≤ (y 0).val ∧ (y 0).val < win0_3.index _ (0 : Fin 3) * 1 + 1; omega
    | ⟨1, _⟩ => show win0_3.index _ (1 : Fin 3) * 1 ≤ (y 1).val ∧ (y 1).val < win0_3.index _ (1 : Fin 3) * 1 + 1; omega
    | ⟨2, _⟩ => show win0_3.index _ (2 : Fin 3) * 2048 ≤ (y 2).val ∧ (y 2).val < win0_3.index _ (2 : Fin 3) * 2048 + 2048; omega

/-! ### Second launch -/

/-- The second launch's index maps at grid point t: block (t, 0, 0) for every window. -/
theorem idx1 : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0) :=
  (by decide +kernel : ∀ t : Fin grid1.N, _)

/-- The batch a grid point of the second launch works on. -/
abbrev bat1 (t : Fin cfg1.N) : Fin 8 := Fin.cast N_1 t

section
variable (V : (c : Dev nD) → (b : Ref sig .tc) → Buf (Elt Ideal) ((c : Thread nD τ).loc b))

/-- The first input block at point t is batch t of the origin cloud's array. -/
theorem iblk1_0_eq (c : Dev nD) (t : Fin cfg1.N) :
    (iblk1 V c 0 t : S1x4096x3.Idx → EReal) = batch (V c main_arg3 : S8x4096x3.Idx → EReal) (bat1 t) := by
  obtain ⟨⟨e0, e1, e2⟩, -⟩ := idx1 t
  funext y
  unfold iblk1
  rw [View.read_apply]
  show (V c main_arg3 : S8x4096x3.Idx → EReal) _ = (V c main_arg3 : S8x4096x3.Idx → EReal) (ix3 (bat1 t) (y 1) (y 2))
  congr 1
  funext a; apply Fin.ext
  match a with
  | ⟨0, _⟩ => show win1_0.index t (0 : Fin 3) * 1 + 1 * (y 0).val = t.val; have h0 : (y 0).val < 1 := (y 0).isLt; omega
  | ⟨1, _⟩ => show win1_0.index t (1 : Fin 3) * 4096 + 1 * (y 1).val = (y 1).val; omega
  | ⟨2, _⟩ => show win1_0.index t (2 : Fin 3) * 3 + 1 * (y 2).val = (y 2).val; omega

/-- The second input block at point t is batch t of the structure cloud's array. -/
theorem iblk1_1_eq (c : Dev nD) (t : Fin cfg1.N) :
    (iblk1 V c 1 t : S1x2048x3.Idx → EReal) = batch (V c main_arg1 : S8x2048x3.Idx → EReal) (bat1 t) := by
  obtain ⟨-, ⟨e0, e1, e2⟩, -⟩ := idx1 t
  funext y
  unfold iblk1
  rw [View.read_apply]
  show (V c main_arg1 : S8x2048x3.Idx → EReal) _ = (V c main_arg1 : S8x2048x3.Idx → EReal) (ix3 (bat1 t) (y 1) (y 2))
  congr 1
  funext a; apply Fin.ext
  match a with
  | ⟨0, _⟩ => show win1_1.index t (0 : Fin 3) * 1 + 1 * (y 0).val = t.val; have h0 : (y 0).val < 1 := (y 0).isLt; omega
  | ⟨1, _⟩ => show win1_1.index t (1 : Fin 3) * 2048 + 1 * (y 1).val = (y 1).val; omega
  | ⟨2, _⟩ => show win1_1.index t (2 : Fin 3) * 3 + 1 * (y 2).val = (y 2).val; omega

end

/-! #### Second launch, first output -/

/-- Where entry i of the first output block at point t sits in its array: row t, entry i. -/
private theorem emb1_2 (t : Fin cfg1.N) (i : Fin 4096) :
    ((cfg1.win 2).blk t).view.emb (ix3 0 0 i : S1x1x4096.Idx) = (ix3 (bat1 t) 0 i : S8x1x4096.Idx) := by
  obtain ⟨-, -, ⟨e0, e1, e2⟩, -⟩ := idx1 t
  funext a; apply Fin.ext
  match a with
  | ⟨0, _⟩ => show win1_2.index t (0 : Fin 3) * 1 + 1 * 0 = t.val; omega
  | ⟨1, _⟩ => show win1_2.index t (1 : Fin 3) * 1 + 1 * 0 = 0; omega
  | ⟨2, _⟩ => show win1_2.index t (2 : Fin 3) * 4096 + 1 * i.val = i.val; omega

/-- What point t writes back through the first output window is block t of the array of nearest distances from
    the origin cloud to the structure cloud. -/
private theorem flushed1_2_eq (c : Dev nD) (t : Fin cfg1.N) :
    (dat1 (V3 m ρ) c).flushed 2 t = ((cfg1.win 2).blk t).view.read (Elt Ideal)
      (fun y : S8x1x4096.Idx => minOverQ (orgPts m c) (strPts m c) (ix2 (y 0) (y 2))) := by
  show (cfg1.win 2).cut (grid1.coords t) ((dat1 (V3 m ρ) c).after 2 t) = _
  rw [after1_2, iblk1_0_eq, iblk1_1_eq, entry1_org, entry1_str]
  refine blk_ext (N := 4096) (fun i => ?_)
  rw [View.read_apply, emb1_2]
  exact Body.out1_2_apply _ _ i

/-- An index of the first output array is in point t's block iff each coordinate is in the block's range. -/
private theorem mem_blk1_2 (t : Fin cfg1.N) (y : S8x1x4096.Idx) :
    y ∈ ((cfg1.win 2).blk t).view.set ↔ ∀ a : Fin 3, win1_2.index t a * S1x1x4096.size a ≤ (y a).val ∧ (y a).val < win1_2.index t a * S1x1x4096.size a + S1x1x4096.size a := by
  show y ∈ ((View.whole main_v18_0).slice (win1_2.rect t)).set ↔ _
  rw [View.set_slice_whole, Rect.mem_set_unit]
  exact Iff.rfl

/-- Second launch, first output: per point of the origin cloud, the nearest squared distance to the structure cloud. -/
theorem arr1_2 (c : Dev nD) : (dat1 (V3 m ρ) c).arrAt 2 cfg1.N
    = (fun y : S8x1x4096.Idx => minOverQ (orgPts m c) (strPts m c) (ix2 (y 0) (y 2))) :=
  (dat1 (V3 m ρ) c).arrAt_eq_of_cover 2 _ (fun t _ => flushed1_2_eq m ρ c t) fun y => by
    have h0 : (y 0).val < 8 := (y 0).isLt
    have h1 : (y 1).val < 1 := (y 1).isLt
    have h2 : (y 2).val < 4096 := (y 2).isLt
    refine ⟨⟨(y 0).val, lt_of_lt_of_eq h0 N_1.symm⟩, flush1_2 _, ?_⟩
    obtain ⟨-, -, ⟨e0, e1, e2⟩, -⟩ := idx1 ⟨(y 0).val, lt_of_lt_of_eq h0 N_1.symm⟩
    have e0' : win1_2.index ⟨(y 0).val, lt_of_lt_of_eq h0 N_1.symm⟩ (0 : Fin 3) = (y 0).val := e0
    rw [mem_blk1_2]
    intro a
    match a with
    | ⟨0, _⟩ => show win1_2.index _ (0 : Fin 3) * 1 ≤ (y 0).val ∧ (y 0).val < win1_2.index _ (0 : Fin 3) * 1 + 1; omega
    | ⟨1, _⟩ => show win1_2.index _ (1 : Fin 3) * 1 ≤ (y 1).val ∧ (y 1).val < win1_2.index _ (1 : Fin 3) * 1 + 1; omega
    | ⟨2, _⟩ => show win1_2.index _ (2 : Fin 3) * 4096 ≤ (y 2).val ∧ (y 2).val < win1_2.index _ (2 : Fin 3) * 4096 + 4096; omega

/-! #### Second launch, second output -/

/-- Where entry i of the second output block at point t sits in its array: row t, entry i. -/
private theorem emb1_3 (t : Fin cfg1.N) (i : Fin 2048) :
    ((cfg1.win 3).blk t).view.emb (ix3 0 0 i : S1x1x2048.Idx) = (ix3 (bat1 t) 0 i : S8x1x2048.Idx) := by
  obtain ⟨-, -, -, ⟨e0, e1, e2⟩⟩ := idx1 t
  funext a; apply Fin.ext
  match a with
  | ⟨0, _⟩ => show win1_3.index t (0 : Fin 3) * 1 + 1 * 0 = t.val; omega
  | ⟨1, _⟩ => show win1_3.index t (1 : Fin 3) * 1 + 1 * 0 = 0; omega
  | ⟨2, _⟩ => show win1_3.index t (2 : Fin 3) * 2048 + 1 * i.val = i.val; omega

/-- What point t writes back through the second output window is block t of the array of nearest distances from
    the structure cloud to the origin cloud. -/
private theorem flushed1_3_eq (c : Dev nD) (t : Fin cfg1.N) :
    (dat1 (V3 m ρ) c).flushed 3 t = ((cfg1.win 3).blk t).view.read (Elt Ideal)
      (fun y : S8x1x2048.Idx => minOverP (orgPts m c) (strPts m c) (ix2 (y 0) (y 2))) := by
  show (cfg1.win 3).cut (grid1.coords t) ((dat1 (V3 m ρ) c).after 3 t) = _
  rw [after1_3, iblk1_0_eq, iblk1_1_eq, entry1_org, entry1_str]
  refine blk_ext (N := 2048) (fun i => ?_)
  rw [View.read_apply, emb1_3]
  exact Body.out1_3_apply _ _ i

/-- An index of the second output array is in point t's block iff each coordinate is in the block's range. -/
private theorem mem_blk1_3 (t : Fin cfg1.N) (y : S8x1x2048.Idx) :
    y ∈ ((cfg1.win 3).blk t).view.set ↔ ∀ a : Fin 3, win1_3.index t a * S1x1x2048.size a ≤ (y a).val ∧ (y a).val < win1_3.index t a * S1x1x2048.size a + S1x1x2048.size a := by
  show y ∈ ((View.whole main_v18_1).slice (win1_3.rect t)).set ↔ _
  rw [View.set_slice_whole, Rect.mem_set_unit]
  exact Iff.rfl

/-- Second launch, second output: per point of the structure cloud, the nearest squared distance to the origin cloud. -/
theorem arr1_3 (c : Dev nD) : (dat1 (V3 m ρ) c).arrAt 3 cfg1.N
    = (fun y : S8x1x2048.Idx => minOverP (orgPts m c) (strPts m c) (ix2 (y 0) (y 2))) :=
  (dat1 (V3 m ρ) c).arrAt_eq_of_cover 3 _ (fun t _ => flushed1_3_eq m ρ c t) fun y => by
    have h0 : (y 0).val < 8 := (y 0).isLt
    have h1 : (y 1).val < 1 := (y 1).isLt
    have h2 : (y 2).val < 2048 := (y 2).isLt
    refine ⟨⟨(y 0).val, lt_of_lt_of_eq h0 N_1.symm⟩, flush1_3 _, ?_⟩
    obtain ⟨-, -, -, ⟨e0, e1, e2⟩⟩ := idx1 ⟨(y 0).val, lt_of_lt_of_eq h0 N_1.symm⟩
    have e0' : win1_3.index ⟨(y 0).val, lt_of_lt_of_eq h0 N_1.symm⟩ (0 : Fin 3) = (y 0).val := e0
    rw [mem_blk1_3]
    intro a
    match a with
    | ⟨0, _⟩ => show win1_3.index _ (0 : Fin 3) * 1 ≤ (y 0).val ∧ (y 0).val < win1_3.index _ (0 : Fin 3) * 1 + 1; omega
    | ⟨1, _⟩ => show win1_3.index _ (1 : Fin 3) * 1 ≤ (y 1).val ∧ (y 1).val < win1_3.index _ (1 : Fin 3) * 1 + 1; omega
    | ⟨2, _⟩ => show win1_3.index _ (2 : Fin 3) * 2048 ≤ (y 2).val ∧ (y 2).val < win1_3.index _ (2 : Fin 3) * 2048 + 2048; omega

end Cert.KernelIdeal.Arr

end
-- ==== Proof.Arrays.lean ====
/-
  The four arrays the two launches write, after all eight grid points: block bb of each is what the body leaves at point
  bb, so each array holds, batch by batch, the nearest squared distances between the two clouds the launch reads.
-/
import proofs.«418857_j12506944766656_3_alg».proof.Proof.ArraysHand
import proofs.«418857_j12506944766656_3_alg».proof.Proof.ArraysLaid
-- ==== Proof.KernelValue.lean ====
/-
  The kernel program's run with its result named: the loss of the nearest squared distances.
-/
import proofs.«418857_j12506944766656_3_alg».proof.Proof.Spec
import proofs.«418857_j12506944766656_3_alg».proof.Proof.Arrays
import proofs.«418857_j12506944766656_3_alg».proof.Proof.ValueRun
import proofs.«418857_j12506944766656_3_alg».proof.Proof.Gen.KernelIdeal.Frame
import Idealize.ShloMosaic.Lib.Pipeline.Value
import Idealize.ShloMosaic.Lib.StableHlo.Run

noncomputable section

namespace Cert.KernelIdeal.KValue

open Idealize.ShloMosaic Idealize.ShloMosaic.TcCoe Idealize.ShloMosaic.ValueIdx Idealize.SL.Sem
open Cert.KernelIdeal Cert.KernelIdeal.Gen Cert.Chamfer

variable (m : (ℓ : Loc nD τ sig) → Buf (Elt Ideal) ℓ) (ρ : Dev nD → PrngReg)

/-- The result the program returns, as a function of the four arguments as launched. -/
def result (c : Dev nD) : S_.Idx → EReal :=
  loss (weight (m ((c : Thread nD τ).loc main_arg2)))
    (minOverQ (Arr.strPts m c) (Arr.fpsPts m c)) (minOverP (Arr.strPts m c) (Arr.fpsPts m c))
    (minOverQ (Arr.orgPts m c) (Arr.strPts m c)) (minOverP (Arr.orgPts m c) (Arr.strPts m c))

/-- Dropping the unit middle axis of an [a, 1, b] array that reads its entry (i, 0, j) off entry (i, j) of an [a, b] array
    gives that array back: (i, 0, j) and (i, j) have the same row-major position i * b + j. -/
private theorem shapeCast_mid {a b : ℕ} (f : (⟨2, ![a, b]⟩ : Shape).Idx → EReal)
    (h : (⟨3, ![a, 1, b]⟩ : Shape).ShapeCasts ⟨2, ![a, b]⟩) :
    shapeCast (⟨2, ![a, b]⟩ : Shape) (fun y : (⟨3, ![a, 1, b]⟩ : Shape).Idx => f (ix2 (y 0) (y 2))) h = f := by
  funext j
  rw [shapeCast_apply _ h j (ix3 (j 0) (0 : Fin 1) (j 1)) ?_]
  · exact congrArg f (eq_ix2 j).symm
  · rw [Shape.rowMajor_val_three, Shape.rowMajor_val_two]
    show ((j 0).val * 1 + 0) * b + (j 1).val = (j 0).val * b + (j 1).val
    rw [Nat.mul_one, Nat.add_zero]

/-- The weight, as the first stretch of host operations leaves it. -/
private theorem W1_v8 (c : Dev nD) :
    W1 m ρ c (Proc.devRef .tc main_v8) = weight (m ((c : Thread nD τ).loc main_arg2)) := by
  show StableHlo.after hostOps0 _ (Proc.devRef .tc main_v8) = _
  after_results
  rfl

/-- The weight is still there when the second stretch of host operations starts: the first launch does not write it. -/
private theorem W2_v8 (c : Dev nD) :
    W2 m ρ c (Proc.devRef .tc main_v8) = weight (m ((c : Thread nD τ).loc main_arg2)) :=
  (W2_of_ne m ρ c main_v8 (by decide)).trans (W1_v8 m ρ c)

/-- The first launch's two output arrays, as the second stretch of host operations finds them. -/
private theorem W2_v9_0 (c : Dev nD) : W2 m ρ c (Proc.devRef .tc main_v9_0)
    = (fun y : S8x1x2048.Idx => minOverQ (Arr.strPts m c) (Arr.fpsPts m c) (ix2 (y 0) (y 2))) :=
  (W2_arr m ρ c 2).trans (Arr.arr0_2 m ρ c)
private theorem W2_v9_1 (c : Dev nD) : W2 m ρ c (Proc.devRef .tc main_v9_1)
    = (fun y : S8x1x2048.Idx => minOverP (Arr.strPts m c) (Arr.fpsPts m c) (ix2 (y 0) (y 2))) :=
  (W2_arr m ρ c 3).trans (Arr.arr0_3 m ρ c)

/-- The first pair's half of the loss, as the second stretch of host operations leaves it: the mean of the nearest
    distances per point of the structure cloud plus the weighted mean of those per point of the fps cloud. -/
private theorem W3_v17 (c : Dev nD) : W3 m ρ c (Proc.devRef .tc main_v17)
    = addf (F := Ideal) (φ := .f32)
        (meanBy 0x46800000#32 (minOverQ (Arr.strPts m c) (Arr.fpsPts m c)) (by decide))
        (meanBy 0x46800000#32 (mulf (F := Ideal) (φ := .f32) (minOverP (Arr.strPts m c) (Arr.fpsPts m c))
          (weight (m ((c : Thread nD τ).loc main_arg2)))) (by decide)) := by
  show StableHlo.after hostOps1 _ (Proc.devRef .tc main_v17) = _
  after_results
  rw [W2_v9_0, W2_v9_1, W2_v8]
  conv_rhs =>
    rw [← shapeCast_mid (minOverQ (Arr.strPts m c) (Arr.fpsPts m c)) shapeCasts_S8x1x2048_S8x2048,
      ← shapeCast_mid (minOverP (Arr.strPts m c) (Arr.fpsPts m c)) shapeCasts_S8x1x2048_S8x2048]
  rfl

/-- The second launch's two output arrays, as the last stretch of host operations finds them. -/
private theorem W4_v18_0 (c : Dev nD) : W4 m ρ c (Proc.devRef .tc main_v18_0)
    = (fun y : S8x1x4096.Idx => minOverQ (Arr.orgPts m c) (Arr.strPts m c) (ix2 (y 0) (y 2))) :=
  (W4_arr m ρ c 2).trans (Arr.arr1_2 m ρ c)
private theorem W4_v18_1 (c : Dev nD) : W4 m ρ c (Proc.devRef .tc main_v18_1)
    = (fun y : S8x1x2048.Idx => minOverP (Arr.orgPts m c) (Arr.strPts m c) (ix2 (y 0) (y 2))) :=
  (W4_arr m ρ c 3).trans (Arr.arr1_3 m ρ c)

/-- The first pair's half of the loss is still there when the last stretch starts: the second launch does not write it. -/
private theorem W4_v17 (c : Dev nD) : W4 m ρ c (Proc.devRef .tc main_v17) = W3 m ρ c (Proc.devRef .tc main_v17) :=
  W4_of_ne m ρ c main_v17 (by decide)

/-- The last boundary's contents at the result buffer. -/
theorem W5_result (c : Dev nD) : W5 m ρ c (Proc.devRef .tc main_v26) = result m c := by
  show StableHlo.after hostOps2 _ (Proc.devRef .tc main_v26) = _
  after_results
  rw [W4_v18_0, W4_v18_1, W4_v17, W3_v17]
  unfold result loss
  conv_rhs =>
    rw [← shapeCast_mid (minOverQ (Arr.orgPts m c) (Arr.strPts m c)) shapeCasts_S8x1x4096_S8x4096,
      ← shapeCast_mid (minOverP (Arr.orgPts m c) (Arr.strPts m c)) shapeCasts_S8x1x2048_S8x2048]
  rfl

/-- Every weakly fair execution of the program terminates, nothing faulting, with the result buffer at the loss of the
    nearest squared distances and the arguments as launched. -/
theorem run : θ_run defs (onTc (τ := τ) (main (F := Ideal))) ⟨m, fun _ => 0, ρ⟩ (fun r => ∀ c : Dev nD,
      r.2.mem ((c.tc : Thread nD τ).loc main_v26) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (W5_result m ρ c), (h c).2⟩) (valueRun m ρ)

end Cert.KernelIdeal.KValue

end
-- ==== Proof.RefValue.lean ====
/-
  The reference program's result as the loss of the nearest squared distances.

  The reference forms, for each pair of clouds, the array of expanded squared distances |p|² + |q|² − 2 (p · q) of every
  point of the first cloud (rows) to every point of the second (columns), and reduces it with a minimum from +∞ once
  along the columns and once along the rows.  Read at an index, an entry of that array is the squared distance of the
  specification; a one-axis reduction with the commutative associative body min is the fold of min over that axis; so the
  four reduced arrays are the four arrays of nearest squared distances, and what the reference does with them afterwards
  is, operation by operation, the loss of the specification.
-/
import proofs.«418857_j12506944766656_3_alg».proof.Proof.Spec
import proofs.«418857_j12506944766656_3_alg».proof.Proof.Gen.ReferenceIdeal.Read
import Idealize.ShloMosaic.PureOps.Reduce
import Idealize.ShloMosaic.PureOps.Ideal.Laws

noncomputable section

namespace Cert.ReferenceIdeal.RefValue

open Idealize.ShloMosaic Idealize.ShloMosaic.ValueIdx Cert.ReferenceIdeal Cert.ReferenceIdeal.Read Cert.Chamfer

/-- The f32 word of +∞ is the top of the extended reals. -/
private theorem inf_eq_top : (Ideal.ofBits .f32 0x7F800000#32 : EReal) = ⊤ := by
  simp [Ideal.ofBits, Ideal.ieee]

/-- A fold of the ideal minimum from the word of +∞ is the fold of min from ⊤. -/
private theorem fold_minimumf {n : Nat} (c : EReal) (hc : c = ⊤) (f g : Fin n → EReal) (hfg : f = g) :
    (Finset.univ : Finset (Fin n)).fold (FloatOps.minimumf (F := Ideal) (φ := .f32)) c f
      = (Finset.univ : Finset (Fin n)).fold min ⊤ g := by
  subst hc; subst hfg; rfl

/-! ## The first pair: the [8, 2048, 2048] array of squared distances -/

/-- The row's square norm is read at point n of the first cloud. -/
private theorem row_idx (b : Fin 8) (n m : Fin 2048) (k : Fin 3) :
    idx_main_v10 (idx_main_v11 (idx_main_v16 (ix3 b n m))) k = ix3 b n k := by
  funext a; match a with | ⟨0, _⟩ => rfl | ⟨1, _⟩ => rfl | ⟨2, _⟩ => rfl

/-- The column's square norm is read at point m of the second cloud. -/
private theorem col_idx (b : Fin 8) (n m : Fin 2048) (k : Fin 3) :
    idx_main_v13 (idx_main_v14 (idx_main_v17 (ix3 b n m))) k = ix3 b m k := by
  funext a; match a with | ⟨0, _⟩ => rfl | ⟨1, _⟩ => rfl | ⟨2, _⟩ => rfl

/-- The inner product's left factor is read at point n of the first cloud. -/
private theorem dotl_idx (b : Fin 8) (n m : Fin 2048) (k : Fin 3) : lidx_main_v15 (ix3 b n m) k = ix3 b n k := by
  funext a; match a with | ⟨0, _⟩ => rfl | ⟨1, _⟩ => rfl | ⟨2, _⟩ => rfl

/-- The inner product's right factor is read at point m of the second cloud. -/
private theorem dotr_idx (b : Fin 8) (n m : Fin 2048) (k : Fin 3) : ridx_main_v15 (ix3 b n m) k = ix3 b m k := by
  funext a; match a with | ⟨0, _⟩ => rfl | ⟨1, _⟩ => rfl | ⟨2, _⟩ => rfl

/-- Entry (b, n, m) of the first array is the squared distance of point n of the cloud x1 and point m of x0. -/
private theorem v21_at (x0 x1 : (⟨S8x2048x3, .f32⟩ : BufTy).Contents (Elt Ideal)) (b : Fin 8) (n m : Fin 2048) :
    val_main_v21 (F := Ideal) x0 x1 (ix3 b n m) = sqd x1 x0 b n m := by
  rw [val_main_v21_apply, val_main_v18_apply, val_main_v20_apply, val_main_v16_apply, val_main_v17_apply,
    val_main_v19_apply, val_main_v15_apply, val_main_v11_apply, val_main_v14_apply, val_main_v10_apply,
    val_main_v13_apply, val_main_cst_5_apply, val_main_cst_3_apply, val_main_cst_4_apply]
  simp only [Fin.sum_univ_three, val_main_v9_apply, val_main_v12_apply, Ideal.ofBits_def, Ideal.ofBits_zero_f32, zero_add,
    Ideal.addf_def, Ideal.subf_def, Ideal.mulf_def]
  simp only [row_idx, col_idx, dotl_idx, dotr_idx]
  rfl

/-- Reduced along the columns from +∞ with a minimum, the first array is, at (b, n), the least squared distance of point n
    of x1 to a point of x0. -/
theorem v22_eq (x0 x1 : (⟨S8x2048x3, .f32⟩ : BufTy).Contents (Elt Ideal)) :
    val_main_v22 (F := Ideal) x0 x1 = minOverQ x1 x0 := by
  funext j
  have h : S8x2048x2048.Reduces [2] S8x2048 := by decide
  unfold val_main_v22
  rw [Host.reduce_eq_fold_single FloatOps.minimumf _ _ Gen.reducesTo_S8x2048x2048_S8x2048_d2 h Gen.h_S_ j]
  refine fold_minimumf _ (by rw [val_main_cst_6_apply, Ideal.ofBits_def]; exact inf_eq_top) _ _ (funext fun m => ?_)
  show val_main_v21 x0 x1 (h.lift j m) = sqd x1 x0 (j 0) (j 1) m
  rw [show h.lift j m = ix3 (j 0) (j 1) m from
    funext fun c => Fin.ext (by match c with | ⟨0, _⟩ => rfl | ⟨1, _⟩ => rfl | ⟨2, _⟩ => rfl)]
  exact v21_at x0 x1 (j 0) (j 1) m

/-- Reduced along the rows, it is at (b, m) the least squared distance of point m of x0 to a point of x1. -/
theorem v23_eq (x0 x1 : (⟨S8x2048x3, .f32⟩ : BufTy).Contents (Elt Ideal)) :
    val_main_v23 (F := Ideal) x0 x1 = minOverP x1 x0 := by
  funext j
  have h : S8x2048x2048.Reduces [1] S8x2048 := by decide
  unfold val_main_v23
  rw [Host.reduce_eq_fold_single FloatOps.minimumf _ _ Gen.reducesTo_S8x2048x2048_S8x2048_d1 h Gen.h_S_ j]
  refine fold_minimumf _ (by rw [val_main_cst_7_apply, Ideal.ofBits_def]; exact inf_eq_top) _ _ (funext fun n => ?_)
  show val_main_v21 x0 x1 (h.lift j n) = sqd x1 x0 (j 0) n (j 1)
  rw [show h.lift j n = ix3 (j 0) n (j 1) from
    funext fun c => Fin.ext (by match c with | ⟨0, _⟩ => rfl | ⟨1, _⟩ => rfl | ⟨2, _⟩ => rfl)]
  exact v21_at x0 x1 (j 0) n (j 1)

/-! ## The second pair: the [8, 4096, 2048] array of squared distances -/

/-- The row's square norm is read at point n of the first cloud. -/
private theorem row_idx' (b : Fin 8) (n : Fin 4096) (m : Fin 2048) (k : Fin 3) :
    idx_main_v31 (idx_main_v32 (idx_main_v37 (ix3 b n m))) k = ix3 b n k := by
  funext a; match a with | ⟨0, _⟩ => rfl | ⟨1, _⟩ => rfl | ⟨2, _⟩ => rfl

/-- The column's square norm is read at point m of the second cloud. -/
private theorem col_idx' (b : Fin 8) (n : Fin 4096) (m : Fin 2048) (k : Fin 3) :
    idx_main_v34 (idx_main_v35 (idx_main_v38 (ix3 b n m))) k = ix3 b m k := by
  funext a; match a with | ⟨0, _⟩ => rfl | ⟨1, _⟩ => rfl | ⟨2, _⟩ => rfl

/-- The inner product's left factor is read at point n of the first cloud. -/
private theorem dotl_idx' (b : Fin 8) (n : Fin 4096) (m : Fin 2048) (k : Fin 3) :
    lidx_main_v36 (ix3 b n m) k = ix3 b n k := by
  funext a; match a with | ⟨0, _⟩ => rfl | ⟨1, _⟩ => rfl | ⟨2, _⟩ => rfl

/-- The inner product's right factor is read at point m of the second cloud. -/
private theorem dotr_idx' (b : Fin 8) (n : Fin 4096) (m : Fin 2048) (k : Fin 3) :
    ridx_main_v36 (ix3 b n m) k = ix3 b m k := by
  funext a; match a with | ⟨0, _⟩ => rfl | ⟨1, _⟩ => rfl | ⟨2, _⟩ => rfl

/-- Entry (b, n, m) of the second array is the squared distance of point n of the cloud x3 and point m of x1. -/
private theorem v42_at (x1 : (⟨S8x2048x3, .f32⟩ : BufTy).Contents (Elt Ideal)) (x3 : (⟨S8x4096x3, .f32⟩ : BufTy).Contents (Elt Ideal))
    (b : Fin 8) (n : Fin 4096) (m : Fin 2048) :
    val_main_v42 (F := Ideal) x1 x3 (ix3 b n m) = sqd x3 x1 b n m := by
  rw [val_main_v42_apply, val_main_v39_apply, val_main_v41_apply, val_main_v37_apply, val_main_v38_apply,
    val_main_v40_apply, val_main_v36_apply, val_main_v32_apply, val_main_v35_apply, val_main_v31_apply,
    val_main_v34_apply, val_main_cst_14_apply, val_main_cst_12_apply, val_main_cst_13_apply]
  simp only [Fin.sum_univ_three, val_main_v30_apply, val_main_v33_apply, Ideal.ofBits_def, Ideal.ofBits_zero_f32, zero_add,
    Ideal.addf_def, Ideal.subf_def, Ideal.mulf_def]
  simp only [row_idx', col_idx', dotl_idx', dotr_idx']
  rfl

/-- Reduced along the columns, the second array is at (b, n) the least squared distance of point n of x3 to a point of x1. -/
theorem v43_eq (x1 : (⟨S8x2048x3, .f32⟩ : BufTy).Contents (Elt Ideal)) (x3 : (⟨S8x4096x3, .f32⟩ : BufTy).Contents (Elt Ideal)) :
    val_main_v43 (F := Ideal) x1 x3 = minOverQ x3 x1 := by
  funext j
  have h : S8x4096x2048.Reduces [2] S8x4096 := by decide
  unfold val_main_v43
  rw [Host.reduce_eq_fold_single FloatOps.minimumf _ _ Gen.reducesTo_S8x4096x2048_S8x4096_d2 h Gen.h_S_ j]
  refine fold_minimumf _ (by rw [val_main_cst_15_apply, Ideal.ofBits_def]; exact inf_eq_top) _ _ (funext fun m => ?_)
  show val_main_v42 x1 x3 (h.lift j m) = sqd x3 x1 (j 0) (j 1) m
  rw [show h.lift j m = ix3 (j 0) (j 1) m from
    funext fun c => Fin.ext (by match c with | ⟨0, _⟩ => rfl | ⟨1, _⟩ => rfl | ⟨2, _⟩ => rfl)]
  exact v42_at x1 x3 (j 0) (j 1) m

/-- Reduced along the rows, it is at (b, m) the least squared distance of point m of x1 to a point of x3. -/
theorem v46_eq (x1 : (⟨S8x2048x3, .f32⟩ : BufTy).Contents (Elt Ideal)) (x3 : (⟨S8x4096x3, .f32⟩ : BufTy).Contents (Elt Ideal)) :
    val_main_v46 (F := Ideal) x1 x3 = minOverP x3 x1 := by
  funext j
  have h : S8x4096x2048.Reduces [1] S8x2048 := by decide
  unfold val_main_v46
  rw [Host.reduce_eq_fold_single FloatOps.minimumf _ _ Gen.reducesTo_S8x4096x2048_S8x2048_d1 h Gen.h_S_ j]
  refine fold_minimumf _ (by rw [val_main_cst_18_apply, Ideal.ofBits_def]; exact inf_eq_top) _ _ (funext fun n => ?_)
  show val_main_v42 x1 x3 (h.lift j n) = sqd x3 x1 (j 0) n (j 1)
  rw [show h.lift j n = ix3 (j 0) n (j 1) from
    funext fun c => Fin.ext (by match c with | ⟨0, _⟩ => rfl | ⟨1, _⟩ => rfl | ⟨2, _⟩ => rfl)]
  exact v42_at x1 x3 (j 0) n (j 1)

theorem result_eq (x0 x1 : (⟨S8x2048x3, .f32⟩ : BufTy).Contents (Elt Ideal)) (x2 : (⟨S8x3x2048, .f32⟩ : BufTy).Contents (Elt Ideal))
    (x3 : (⟨S8x4096x3, .f32⟩ : BufTy).Contents (Elt Ideal)) :
    val_main_v50 (F := Ideal) x0 x1 x2 x3
      = loss (weight x2) (minOverQ x1 x0) (minOverP x1 x0) (minOverQ x3 x1) (minOverP x3 x1) := by
  unfold val_main_v50 val_main_v29 val_main_v49 val_main_v26 val_main_v28 val_main_v45 val_main_v48 val_main_v25
    val_main_v27 val_main_v44 val_main_v47 val_main_v24
  rw [v22_eq, v23_eq, v43_eq, v46_eq]
  rfl

end Cert.ReferenceIdeal.RefValue

end
-- ==== Proof.lean ====
/-
  A weighted Chamfer loss: the kernel program against its jnp reference, equal over the extended reals.

  Both programs take three point clouds (fps and structure, eight batches of 2048 points of ℝ³; origin, eight batches of
  4096) and a weight map, and return the sum of four means: for the pair (structure, fps) the mean over the structure
  points of the squared distance to the nearest fps point, plus the mean over the fps points of the weighted squared
  distance to the nearest structure point; for the pair (origin, structure) the two unweighted means.  Each squared
  distance is taken in the expanded form |p|² + |q|² − 2 (p · q).

  The reference forms the whole [8, N, M] array of distances and reduces it along one axis and along the other.  The
  kernel program makes one launch per pair, one grid point per batch; a grid point holds both clouds of its batch, walks
  the second cloud in eight chunks of 256 points, writes each chunk's column minima straight to the second output and
  keeps a running row minimum for the first.  Over the extended reals sums and products commute and associate, and a
  minimum does not depend on how its index set is cut, so both programs compute the same four arrays of nearest distances
  (Spec.lean's minOverQ and minOverP) index by index, and then apply the same host operations to them.

  The three frames: the two kernel programs' are generated whole; the reference's is its generated run with the result
  dropped.  The idealization rewrote nothing.  The value claim: the kernel program's run with its result named
  (KernelValue.lean, over the output arrays of Arrays.lean and the body's values of KernelBody0/1.lean) against the
  reference's generated run read back as the same loss (RefValue.lean).
-/
import proofs.«418857_j12506944766656_3_alg».proof.Defs
import proofs.«418857_j12506944766656_3_alg».proof.Proof.Gen.Kernel
import proofs.«418857_j12506944766656_3_alg».proof.Proof.Gen.Kernel.Skeleton
import proofs.«418857_j12506944766656_3_alg».proof.Proof.Gen.Kernel.Launch
import proofs.«418857_j12506944766656_3_alg».proof.Proof.Gen.Kernel.Points
import proofs.«418857_j12506944766656_3_alg».proof.Proof.Gen.Kernel.Frame
import proofs.«418857_j12506944766656_3_alg».proof.Proof.Gen.KernelIdeal
import proofs.«418857_j12506944766656_3_alg».proof.Proof.Gen.KernelIdeal.Skeleton
import proofs.«418857_j12506944766656_3_alg».proof.Proof.Gen.KernelIdeal.Launch
import proofs.«418857_j12506944766656_3_alg».proof.Proof.Gen.KernelIdeal.Points
import proofs.«418857_j12506944766656_3_alg».proof.Proof.Gen.KernelIdeal.Frame
import proofs.«418857_j12506944766656_3_alg».proof.Proof.Gen.ReferenceIdeal
import proofs.«418857_j12506944766656_3_alg».proof.Proof.Gen.Pre_finite_inputs
import proofs.«418857_j12506944766656_3_alg».proof.Proof.Gen.ReferenceIdeal.Run
import proofs.«418857_j12506944766656_3_alg».proof.Proof.Gen.ReferenceIdeal.Read
import proofs.«418857_j12506944766656_3_alg».proof.Proof.KernelValue
import proofs.«418857_j12506944766656_3_alg».proof.Proof.RefValue
import Idealize.ShloMosaic.Adequacy
import Idealize.ShloMosaic.Init

noncomputable section

namespace Cert.Proof

open Idealize.ShloMosaic Idealize.SL.Sem

/-- The reference runs and leaves its arguments alone: its generated run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- From memories agreeing on the four arguments the kernel program's result buffer and the reference's end at one value:
    the loss of the nearest squared distances of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, Cert.ReferenceIdeal.RefValue.result_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri, trivial, algebraic⟩

end Cert.Proof

end
